-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x160x160x160 : Shape := ⟨5, ![8, 1, 160, 160, 160]⟩
abbrev S32000x5 : Shape := ⟨2, ![32000, 5]⟩
abbrev S_ : Shape := ⟨0, ![]⟩
abbrev S32000x1 : Shape := ⟨2, ![32000, 1]⟩
abbrev S32000 : Shape := ⟨1, ![32000]⟩

class Facts : Prop where
  bcast_S_S8x1x160x160x160 : S_.BroadcastsInDim S8x1x160x160x160 (![] : Fin 0 → Fin S8x1x160x160x160.rank)
  reducesTo_S8x1x160x160x160_S_d0_1_2_3_4 : S8x1x160x160x160.ReducesTo [0, 1, 2, 3, 4] S_
  h_S_ : 0 < S_.numel
  slices_S32000x5_S32000x1_0_0 : S32000x5.Slices ![0, 0] S32000x1
  shapeCasts_S32000x1_S32000 : S32000x1.ShapeCasts S32000
  bcast_S_S32000 : S_.BroadcastsInDim S32000 (![] : Fin 0 → Fin S32000.rank)
  reducesTo_S32000_S_d0 : S32000.ReducesTo [0] S_
  slices_S32000x5_S32000x1_0_2 : S32000x5.Slices ![0, 2] S32000x1
  slices_S32000x5_S32000x1_0_3 : S32000x5.Slices ![0, 3] S32000x1
  slices_S32000x5_S32000x1_0_4 : S32000x5.Slices ![0, 4] S32000x1

variable [Facts]

def fn_part3 {F : FTy → Type} [FloatOps F] (main_v50 : IVec S_ 1) (main_v52 : IVec S32000 32) (main_c_16 : IVec S_ 32) : IVec S_ 1 :=
  let main_v53 : IVec S32000 32 := broadcastInDim S32000 ![] bcast_S_S32000 main_c_16
  let main_v54 : IVec S32000 1 := cmpi .slt main_v52 main_v53
  let main_c_17 : IVec S_ 1 := constantI S_ 1 1#1
  let main_v55 : IVec S_ 1 := (fun x v => Host.reduce IntOp.andi x v reducesTo_S32000_S_d0 h_S_) main_v54 main_c_17
  let main_v56 : IVec S_ 1 := andi main_v50 main_v55
  main_v56

def fn_part2 {F : FTy → Type} [FloatOps F] (main_arg2 : IVec S32000x5 32) (main_v32 : IVec S_ 1) (main_v34 : IVec S32000 32) (main_c_10 : IVec S_ 32) : IVec S_ 1 :=
  let main_v35 : IVec S32000 32 := broadcastInDim S32000 ![] bcast_S_S32000 main_c_10
  let main_v36 : IVec S32000 1 := cmpi .sge main_v34 main_v35
  let main_c_11 : IVec S_ 1 := constantI S_ 1 1#1
  let main_v37 : IVec S_ 1 := (fun x v => Host.reduce IntOp.andi x v reducesTo_S32000_S_d0 h_S_) main_v36 main_c_11
  let main_v38 : IVec S_ 1 := andi main_v32 main_v37
  let main_v39 : IVec S32000x1 32 := (extractStridedSlice S32000x1 ![0, 3] · slices_S32000x5_S32000x1_0_3) main_arg2
  let main_v40 : IVec S32000 32 := shapeCast S32000 main_v39 shapeCasts_S32000x1_S32000
  let main_c_12 : IVec S_ 32 := constantI S_ 32 20#32
  let main_v41 : IVec S32000 32 := broadcastInDim S32000 ![] bcast_S_S32000 main_c_12
  let main_v42 : IVec S32000 1 := cmpi .slt main_v40 main_v41
  let main_c_13 : IVec S_ 1 := constantI S_ 1 1#1
  let main_v43 : IVec S_ 1 := (fun x v => Host.reduce IntOp.andi x v reducesTo_S32000_S_d0 h_S_) main_v42 main_c_13
  let main_v44 : IVec S_ 1 := andi main_v38 main_v43
  let main_v45 : IVec S32000x1 32 := (extractStridedSlice S32000x1 ![0, 4] · slices_S32000x5_S32000x1_0_4) main_arg2
  let main_v46 : IVec S32000 32 := shapeCast S32000 main_v45 shapeCasts_S32000x1_S32000
  let main_c_14 : IVec S_ 32 := constantI S_ 32 0#32
  let main_v47 : IVec S32000 32 := broadcastInDim S32000 ![] bcast_S_S32000 main_c_14
  let main_v48 : IVec S32000 1 := cmpi .sge main_v46 main_v47
  let main_c_15 : IVec S_ 1 := constantI S_ 1 1#1
  let main_v49 : IVec S_ 1 := (fun x v => Host.reduce IntOp.andi x v reducesTo_S32000_S_d0 h_S_) main_v48 main_c_15
  let main_v50 : IVec S_ 1 := andi main_v44 main_v49
  let main_v51 : IVec S32000x1 32 := (extractStridedSlice S32000x1 ![0, 4] · slices_S32000x5_S32000x1_0_4) main_arg2
  let main_v52 : IVec S32000 32 := shapeCast S32000 main_v51 shapeCasts_S32000x1_S32000
  let main_c_16 : IVec S_ 32 := constantI S_ 32 20#32
  fn_part3 (F := F) main_v50 main_v52 main_c_16

def fn_part1 {F : FTy → Type} [FloatOps F] (main_arg2 : IVec S32000x5 32) (main_v14 : IVec S_ 1) (main_v16 : IVec S32000 32) (main_c_4 : IVec S_ 32) : IVec S_ 1 :=
  let main_v17 : IVec S32000 32 := broadcastInDim S32000 ![] bcast_S_S32000 main_c_4
  let main_v18 : IVec S32000 1 := cmpi .slt main_v16 main_v17
  let main_c_5 : IVec S_ 1 := constantI S_ 1 1#1
  let main_v19 : IVec S_ 1 := (fun x v => Host.reduce IntOp.andi x v reducesTo_S32000_S_d0 h_S_) main_v18 main_c_5
  let main_v20 : IVec S_ 1 := andi main_v14 main_v19
  let main_v21 : IVec S32000x1 32 := (extractStridedSlice S32000x1 ![0, 2] · slices_S32000x5_S32000x1_0_2) main_arg2
  let main_v22 : IVec S32000 32 := shapeCast S32000 main_v21 shapeCasts_S32000x1_S32000
  let main_c_6 : IVec S_ 32 := constantI S_ 32 0#32
  let main_v23 : IVec S32000 32 := broadcastInDim S32000 ![] bcast_S_S32000 main_c_6
  let main_v24 : IVec S32000 1 := cmpi .sge main_v22 main_v23
  let main_c_7 : IVec S_ 1 := constantI S_ 1 1#1
  let main_v25 : IVec S_ 1 := (fun x v => Host.reduce IntOp.andi x v reducesTo_S32000_S_d0 h_S_) main_v24 main_c_7
  let main_v26 : IVec S_ 1 := andi main_v20 main_v25
  let main_v27 : IVec S32000x1 32 := (extractStridedSlice S32000x1 ![0, 2] · slices_S32000x5_S32000x1_0_2) main_arg2
  let main_v28 : IVec S32000 32 := shapeCast S32000 main_v27 shapeCasts_S32000x1_S32000
  let main_c_8 : IVec S_ 32 := constantI S_ 32 20#32
  let main_v29 : IVec S32000 32 := broadcastInDim S32000 ![] bcast_S_S32000 main_c_8
  let main_v30 : IVec S32000 1 := cmpi .slt main_v28 main_v29
  let main_c_9 : IVec S_ 1 := constantI S_ 1 1#1
  let main_v31 : IVec S_ 1 := (fun x v => Host.reduce IntOp.andi x v reducesTo_S32000_S_d0 h_S_) main_v30 main_c_9
  let main_v32 : IVec S_ 1 := andi main_v26 main_v31
  let main_v33 : IVec S32000x1 32 := (extractStridedSlice S32000x1 ![0, 3] · slices_S32000x5_S32000x1_0_3) main_arg2
  let main_v34 : IVec S32000 32 := shapeCast S32000 main_v33 shapeCasts_S32000x1_S32000
  let main_c_10 : IVec S_ 32 := constantI S_ 32 0#32
  fn_part2 (F := F) main_arg2 main_v32 main_v34 main_c_10

def fn {F : FTy → Type} [FloatOps F] (main_arg0 : FVec F S8x1x160x160x160 .f32) (main_arg1 : FVec F S8x1x160x160x160 .f32) (main_arg2 : IVec S32000x5 32) : IVec S_ 1 :=
  let main_v0 : FVec F S8x1x160x160x160 .f32 := Host.absf main_arg0
  let main_cst : FVec F S_ .f32 := constant S_ .f32 0x7F800000#32
  let main_v1 : FVec F S8x1x160x160x160 .f32 := broadcastInDim S8x1x160x160x160 ![] bcast_S_S8x1x160x160x160 main_cst
  let main_v2 : IVec S8x1x160x160x160 1 := cmpf .olt main_v0 main_v1
  let main_c : IVec S_ 1 := constantI S_ 1 1#1
  let main_v3 : IVec S_ 1 := (fun x v => Host.reduce IntOp.andi x v reducesTo_S8x1x160x160x160_S_d0_1_2_3_4 h_S_) main_v2 main_c
  let main_v4 : FVec F S8x1x160x160x160 .f32 := Host.absf main_arg1
  let main_cst_0 : FVec F S_ .f32 := constant S_ .f32 0x7F800000#32
  let main_v5 : FVec F S8x1x160x160x160 .f32 := broadcastInDim S8x1x160x160x160 ![] bcast_S_S8x1x160x160x160 main_cst_0
  let main_v6 : IVec S8x1x160x160x160 1 := cmpf .olt main_v4 main_v5
  let main_c_1 : IVec S_ 1 := constantI S_ 1 1#1
  let main_v7 : IVec S_ 1 := (fun x v => Host.reduce IntOp.andi x v reducesTo_S8x1x160x160x160_S_d0_1_2_3_4 h_S_) main_v6 main_c_1
  let main_v8 : IVec S_ 1 := andi main_v3 main_v7
  let main_v9 : IVec S32000x1 32 := (extractStridedSlice S32000x1 ![0, 0] · slices_S32000x5_S32000x1_0_0) main_arg2
  let main_v10 : IVec S32000 32 := shapeCast S32000 main_v9 shapeCasts_S32000x1_S32000
  let main_c_2 : IVec S_ 32 := constantI S_ 32 0#32
  let main_v11 : IVec S32000 32 := broadcastInDim S32000 ![] bcast_S_S32000 main_c_2
  let main_v12 : IVec S32000 1 := cmpi .sge main_v10 main_v11
  let main_c_3 : IVec S_ 1 := constantI S_ 1 1#1
  let main_v13 : IVec S_ 1 := (fun x v => Host.reduce IntOp.andi x v reducesTo_S32000_S_d0 h_S_) main_v12 main_c_3
  let main_v14 : IVec S_ 1 := andi main_v8 main_v13
  let main_v15 : IVec S32000x1 32 := (extractStridedSlice S32000x1 ![0, 0] · slices_S32000x5_S32000x1_0_0) main_arg2
  let main_v16 : IVec S32000 32 := shapeCast S32000 main_v15 shapeCasts_S32000x1_S32000
  let main_c_4 : IVec S_ 32 := constantI S_ 32 8#32
  fn_part1 (F := F) main_arg2 main_v14 main_v16 main_c_4
-- ==== Kernel.lean ====
abbrev S8x1x160x160x160 : Shape := ⟨5, ![8, 1, 160, 160, 160]⟩
abbrev S32000x5 : Shape := ⟨2, ![32000, 5]⟩
abbrev S8x160x160x160 : Shape := ⟨4, ![8, 160, 160, 160]⟩
abbrev S160 : Shape := ⟨1, ![160]⟩
abbrev S_ : Shape := ⟨0, ![]⟩
abbrev S20 : Shape := ⟨1, ![20]⟩
abbrev S160x1 : Shape := ⟨2, ![160, 1]⟩
abbrev S1x20 : Shape := ⟨2, ![1, 20]⟩
abbrev S160x20 : Shape := ⟨2, ![160, 20]⟩
abbrev S20x160 : Shape := ⟨2, ![20, 160]⟩
abbrev S8x20x20x20 : Shape := ⟨4, ![8, 20, 20, 20]⟩
abbrev S1x40x160x160 : Shape := ⟨4, ![1, 40, 160, 160]⟩
abbrev S1x5x20x20 : Shape := ⟨4, ![1, 5, 20, 20]⟩
abbrev S1x8x160x160 : Shape := ⟨4, ![1, 8, 160, 160]⟩
abbrev S8x160x160 : Shape := ⟨3, ![8, 160, 160]⟩
abbrev S160x160 : Shape := ⟨2, ![160, 160]⟩
abbrev S20x20 : Shape := ⟨2, ![20, 20]⟩
abbrev S1x20x20 : Shape := ⟨3, ![1, 20, 20]⟩
abbrev S5x20x20 : Shape := ⟨3, ![5, 20, 20]⟩
abbrev S32000x1 : Shape := ⟨2, ![32000, 1]⟩
abbrev S32000 : Shape := ⟨1, ![32000]⟩
abbrev S64000 : Shape := ⟨1, ![64000]⟩

abbrev nBuf : Space → Nat
  | .hbm => 99
  | .vmem => 8
  | .smem => 0
  | _ => 0

abbrev bufTy : (tb : Table) → Fin (tcTables nBuf tb) → BufTy
  | .hbm, ⟨0, _⟩ => ⟨S8x1x160x160x160, .f32⟩
  | .hbm, ⟨1, _⟩ => ⟨S8x1x160x160x160, .f32⟩
  | .hbm, ⟨2, _⟩ => ⟨S32000x5, .i32⟩
  | .hbm, ⟨3, _⟩ => ⟨S8x160x160x160, .f32⟩
  | .hbm, ⟨4, _⟩ => ⟨S8x160x160x160, .f32⟩
  | .hbm, ⟨5, _⟩ => ⟨S160, .i32⟩
  | .hbm, ⟨6, _⟩ => ⟨S_, .i32⟩
  | .hbm, ⟨7, _⟩ => ⟨S_, .i32⟩
  | .hbm, ⟨8, _⟩ => ⟨S160, .i32⟩
  | .hbm, ⟨9, _⟩ => ⟨S160, .i32⟩
  | .hbm, ⟨10, _⟩ => ⟨S160, .i32⟩
  | .hbm, ⟨11, _⟩ => ⟨S_, .i32⟩
  | .hbm, ⟨12, _⟩ => ⟨S160, .i32⟩
  | .hbm, ⟨13, _⟩ => ⟨S160, .i1⟩
  | .hbm, ⟨14, _⟩ => ⟨S160, .i32⟩
  | .hbm, ⟨15, _⟩ => ⟨S160, .i32⟩
  | .hbm, ⟨16, _⟩ => ⟨S_, .i32⟩
  | .hbm, ⟨17, _⟩ => ⟨S160, .i32⟩
  | .hbm, ⟨18, _⟩ => ⟨S160, .i1⟩
  | .hbm, ⟨19, _⟩ => ⟨S160, .i1⟩
  | .hbm, ⟨20, _⟩ => ⟨S_, .i32⟩
  | .hbm, ⟨21, _⟩ => ⟨S160, .i32⟩
  | .hbm, ⟨22, _⟩ => ⟨S160, .i32⟩
  | .hbm, ⟨23, _⟩ => ⟨S160, .i32⟩
  | .hbm, ⟨24, _⟩ => ⟨S20, .i32⟩
  | .hbm, ⟨25, _⟩ => ⟨S160x1, .i32⟩
  | .hbm, ⟨26, _⟩ => ⟨S1x20, .i32⟩
  | .hbm, ⟨27, _⟩ => ⟨S160x20, .i32⟩
  | .hbm, ⟨28, _⟩ => ⟨S160x20, .i32⟩
  | .hbm, ⟨29, _⟩ => ⟨S160x20, .i1⟩
  | .hbm, ⟨30, _⟩ => ⟨S160x20, .f32⟩
  | .hbm, ⟨31, _⟩ => ⟨S20x160, .f32⟩
  | .hbm, ⟨32, _⟩ => ⟨S8x20x20x20, .f32⟩
  | .hbm, ⟨33, _⟩ => ⟨S32000x1, .i32⟩
  | .hbm, ⟨34, _⟩ => ⟨S32000, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S32000, .i32⟩
  | .hbm, ⟨39, _⟩ => ⟨S32000, .i32⟩
  | .hbm, ⟨40, _⟩ => ⟨S_, .i32⟩
  | .hbm, ⟨41, _⟩ => ⟨S32000, .i32⟩
  | .hbm, ⟨42, _⟩ => ⟨S32000, .i32⟩
  | .hbm, ⟨43, _⟩ => ⟨S32000x1, .i32⟩
  | .hbm, ⟨44, _⟩ => ⟨S32000, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S32000, .i32⟩
  | .hbm, ⟨49, _⟩ => ⟨S32000, .i32⟩
  | .hbm, ⟨50, _⟩ => ⟨S_, .i32⟩
  | .hbm, ⟨51, _⟩ => ⟨S32000, .i32⟩
  | .hbm, ⟨52, _⟩ => ⟨S32000, .i32⟩
  | .hbm, ⟨53, _⟩ => ⟨S32000x1, .i32⟩
  | .hbm, ⟨54, _⟩ => ⟨S32000, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S32000, .i32⟩
  | .hbm, ⟨59, _⟩ => ⟨S32000, .i32⟩
  | .hbm, ⟨60, _⟩ => ⟨S_, .i32⟩
  | .hbm, ⟨61, _⟩ => ⟨S32000, .i32⟩
  | .hbm, ⟨62, _⟩ => ⟨S32000, .i32⟩
  | .hbm, ⟨63, _⟩ => ⟨S32000x1, .i32⟩
  | .hbm, ⟨64, _⟩ => ⟨S32000, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S32000, .i32⟩
  | .hbm, ⟨69, _⟩ => ⟨S32000, .i32⟩
  | .hbm, ⟨70, _⟩ => ⟨S_, .i32⟩
  | .hbm, ⟨71, _⟩ => ⟨S32000, .i32⟩
  | .hbm, ⟨72, _⟩ => ⟨S32000, .i32⟩
  | .hbm, ⟨73, _⟩ => ⟨S_, .i32⟩
  | .hbm, ⟨74, _⟩ => ⟨S32000, .i32⟩
  | .hbm, ⟨75, _⟩ => ⟨S32000, .i32⟩
  | .hbm, ⟨76, _⟩ => ⟨S32000, .i32⟩
  | .hbm, ⟨77, _⟩ => ⟨S_, .i32⟩
  | .hbm, ⟨78, _⟩ => ⟨S32000, .i32⟩
  | .hbm, ⟨79, _⟩ => ⟨S32000, .i32⟩
  | .hbm, ⟨80, _⟩ => ⟨S32000, .i32⟩
  | .hbm, ⟨81, _⟩ => ⟨S_, .i32⟩
  | .hbm, ⟨82, _⟩ => ⟨S32000, .i32⟩
  | .hbm, ⟨83, _⟩ => ⟨S32000, .i32⟩
  | .hbm, ⟨84, _⟩ => ⟨S32000, .i32⟩
  | .hbm, ⟨85, _⟩ => ⟨S64000, .f32⟩
  | .hbm, ⟨86, _⟩ => ⟨S_, .i32⟩
  | .hbm, ⟨87, _⟩ => ⟨S32000, .i32⟩
  | .hbm, ⟨88, _⟩ => ⟨S32000, .i1⟩
  | .hbm, ⟨89, _⟩ => ⟨S_, .i32⟩
  | .hbm, ⟨90, _⟩ => ⟨S32000, .i32⟩
  | .hbm, ⟨91, _⟩ => ⟨S32000, .i32⟩
  | .hbm, ⟨92, _⟩ => ⟨S32000, .i32⟩
  | .hbm, ⟨93, _⟩ => ⟨S32000x1, .i32⟩
  | .hbm, ⟨94, _⟩ => ⟨S32000, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .local _ .vmem, ⟨0, _⟩ => ⟨S1x40x160x160, .f32⟩
  | .local _ .vmem, ⟨1, _⟩ => ⟨S1x40x160x160, .f32⟩
  | .local _ .vmem, ⟨2, _⟩ => ⟨S1x40x160x160, .f32⟩
  | .local _ .vmem, ⟨3, _⟩ => ⟨S1x40x160x160, .f32⟩
  | .local _ .vmem, ⟨4, _⟩ => ⟨S160x20, .f32⟩
  | .local _ .vmem, ⟨5, _⟩ => ⟨S20x160, .f32⟩
  | .local _ .vmem, ⟨6, _⟩ => ⟨S1x5x20x20, .f32⟩
  | .local _ .vmem, ⟨7, _⟩ => ⟨S1x5x20x20, .f32⟩
  | _, _ => ⟨S8x1x160x160x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c_0 : Ref sig .tc := ⟨.hbm, 35, rfl⟩
abbrev main_c_1 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_c_2 : Ref sig .tc := ⟨.hbm, 45, rfl⟩
abbrev main_c_3 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_c_4 : Ref sig .tc := ⟨.hbm, 55, rfl⟩
abbrev main_c_5 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_c_6 : Ref sig .tc := ⟨.hbm, 65, rfl⟩
abbrev main_c_7 : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_call4_v3 : Ref sig .tc := ⟨.hbm, 70, rfl⟩
abbrev main_call4_v4 : Ref sig .tc := ⟨.hbm, 71, rfl⟩
abbrev main_v24 : Ref sig .tc := ⟨.hbm, 72, rfl⟩
abbrev main_c_8 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_c_9 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_c_10 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_c_11 : Ref sig .tc := ⟨.hbm, 86, rfl⟩
abbrev main_v35 : Ref sig .tc := ⟨.hbm, 87, rfl⟩
abbrev main_v36 : Ref sig .tc := ⟨.hbm, 88, rfl⟩
abbrev main_c_12 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_cst : Ref sig .tc := ⟨.hbm, 95, rfl⟩
abbrev main_v42 : Ref sig .tc := ⟨.hbm, 96, rfl⟩
abbrev main_cst_13 : Ref sig .tc := ⟨.hbm, 97, rfl⟩
abbrev main_v43 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x40x160x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x40x160x160 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S160x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S20x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x5x20x20 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8x1x160x160x160_S8x160x160x160 : S8x1x160x160x160.ShapeCasts S8x160x160x160
  bcast_S_S160 : S_.BroadcastsInDim S160 (![] : Fin 0 → Fin S160.rank)
  bcast_S160_S160x1_0 : S160.BroadcastsInDim S160x1 (![0] : Fin 1 → Fin S160x1.rank)
  bcast_S20_S1x20_1 : S20.BroadcastsInDim S1x20 (![1] : Fin 1 → Fin S1x20.rank)
  bcast_S160x1_S160x20_0_1 : S160x1.BroadcastsInDim S160x20 (![0, 1] : Fin 2 → Fin S160x20.rank)
  bcast_S1x20_S160x20_0_1 : S1x20.BroadcastsInDim S160x20 (![0, 1] : Fin 2 → Fin S160x20.rank)
  transposes_S160x20_S20x160_1_0 : S160x20.Transposes [1, 0] S20x160
  inb_S160x20_S160x20_0_0 : ∀ a, (![0, 0] : Fin 2 → Nat) a + S160x20.size a ≤ S160x20.size a
  h_S160x20 : 0 < S160x20.numel
  shapeCasts_S160x20_S160x20 : S160x20.ShapeCasts S160x20
  inb_S20x160_S20x160_0_0 : ∀ a, (![0, 0] : Fin 2 → Nat) a + S20x160.size a ≤ S20x160.size a
  h_S20x160 : 0 < S20x160.numel
  shapeCasts_S20x160_S20x160 : S20x160.ShapeCasts S20x160
  inb_S1x40x160x160_S1x8x160x160_0_0_0_0 : ∀ a, (![0, 0, 0, 0] : Fin 4 → Nat) a + S1x8x160x160.size a ≤ S1x40x160x160.size a
  h_S1x8x160x160 : 0 < S1x8x160x160.numel
  shapeCasts_S1x8x160x160_S8x160x160 : S1x8x160x160.ShapeCasts S8x160x160
  reduces_S8x160x160_S160x160 : S8x160x160.Reduces [0] S160x160
  shapeCasts_S20x20_S1x20x20 : S20x20.ShapeCasts S1x20x20
  inb_S1x40x160x160_S1x8x160x160_0_8_0_0 : ∀ a, (![0, 8, 0, 0] : Fin 4 → Nat) a + S1x8x160x160.size a ≤ S1x40x160x160.size a
  inb_S1x40x160x160_S1x8x160x160_0_16_0_0 : ∀ a, (![0, 16, 0, 0] : Fin 4 → Nat) a + S1x8x160x160.size a ≤ S1x40x160x160.size a
  inb_S1x40x160x160_S1x8x160x160_0_24_0_0 : ∀ a, (![0, 24, 0, 0] : Fin 4 → Nat) a + S1x8x160x160.size a ≤ S1x40x160x160.size a
  inb_S1x40x160x160_S1x8x160x160_0_32_0_0 : ∀ a, (![0, 32, 0, 0] : Fin 4 → Nat) a + S1x8x160x160.size a ≤ S1x40x160x160.size a
  concatenates_S1x20x20_S1x20x20_S1x20x20_S1x20x20_S1x20x20_S5x20x20_d0 : Shape.Concatenates [S1x20x20, S1x20x20, S1x20x20, S1x20x20, S1x20x20] S5x20x20 0
  inb_S1x5x20x20_S1x5x20x20_0_0_0_0 : ∀ a, (![0, 0, 0, 0] : Fin 4 → Nat) a + S1x5x20x20.size a ≤ S1x5x20x20.size a
  h_S1x5x20x20 : 0 < S1x5x20x20.numel
  shapeCasts_S1x5x20x20_S5x20x20 : S1x5x20x20.ShapeCasts S5x20x20
  shapeCasts_S5x20x20_S1x5x20x20 : S5x20x20.ShapeCasts S1x5x20x20
  slices_S32000x5_S32000x1_0_0 : S32000x5.Slices ![0, 0] S32000x1
  shapeCasts_S32000x1_S32000 : S32000x1.ShapeCasts S32000
  bcast_S_S32000 : S_.BroadcastsInDim S32000 (![] : Fin 0 → Fin S32000.rank)
  slices_S32000x5_S32000x1_0_2 : S32000x5.Slices ![0, 2] S32000x1
  slices_S32000x5_S32000x1_0_3 : S32000x5.Slices ![0, 3] S32000x1
  slices_S32000x5_S32000x1_0_4 : S32000x5.Slices ![0, 4] S32000x1
  shapeCasts_S8x20x20x20_S64000 : S8x20x20x20.ShapeCasts S64000
  bcast_S32000_S32000x1_0 : S32000.BroadcastsInDim S32000x1 (![0] : Fin 1 → Fin S32000x1.rank)
  reducesTo_S32000_S_d0 : S32000.ReducesTo [0] S_
  h_S_ : 0 < S_.numel
  dot_S160x160_S160x20_S160x20_1_0_0_1_n_n_wf : DotDims.WF S160x160 S160x20 S160x20 [1] [0] [0] [1] [] []
  dot_S20x160_S160x20_S20x20_1_0_0_1_n_n_wf : DotDims.WF S20x160 S160x20 S20x20 [1] [0] [0] [1] [] []
  gather_S64000_S32000x1_S32000_n_0_n_n_0_1_1_wf : GatherDims.WF S64000 S32000x1 S32000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x40x160x160.size a ≤ S8x160x160x160.size a
  hwx0_0 : ∀ i : grid0.Coords, EltTy.bits .f32 = 32 ∨ (Rect.block (s := S8x160x160x160) S1x40x160x160.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x40x160x160.size a ≤ S8x160x160x160.size a
  hwx0_1 : ∀ i : grid0.Coords, EltTy.bits .f32 = 32 ∨ (Rect.block (s := S8x160x160x160) S1x40x160x160.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S160x20.size a ≤ S160x20.size a
  hwx0_2 : ∀ i : grid0.Coords, EltTy.bits .f32 = 32 ∨ (Rect.block (s := S160x20) S160x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x160.size a ≤ S20x160.size a
  hwx0_3 : ∀ i : grid0.Coords, EltTy.bits .f32 = 32 ∨ (Rect.block (s := S20x160) S20x160.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x5x20x20.size a ≤ S8x20x20x20.size a
  hwx0_4 : ∀ i : grid0.Coords, EltTy.bits .f32 = 32 ∨ (Rect.block (s := S8x20x20x20) S1x5x20x20.size (cc0_transform_4 i) (hinb0_4 i)).WholeWords (EltTy.packing .f32)

variable [Facts₀]

def dot_S160x160_S160x20_S160x20_1_0_0_1_n_n : DotDims S160x160 S160x20 S160x20 where
  lhsContracting := [1]
  rhsContracting := [0]
  lhsNonContracting := [0]
  rhsNonContracting := [1]
  lhsBatch := []
  rhsBatch := []
  wf := dot_S160x160_S160x20_S160x20_1_0_0_1_n_n_wf
def dot_S20x160_S160x20_S20x20_1_0_0_1_n_n : DotDims S20x160 S160x20 S20x20 where
  lhsContracting := [1]
  rhsContracting := [0]
  lhsNonContracting := [0]
  rhsNonContracting := [1]
  lhsBatch := []
  rhsBatch := []
  wf := dot_S20x160_S160x20_S20x20_1_0_0_1_n_n_wf
def gather_S64000_S32000x1_S32000_n_0_n_n_0_1_1 : GatherDims S64000 S32000x1 S32000 where
  offsetDims := []
  collapsedSliceDims := [0]
  operandBatchingDims := []
  startIndicesBatchingDims := []
  startIndexMap := [0]
  indexVectorDim := 1
  sliceSizes := ![1]
  wf := gather_S64000_S32000x1_S32000_n_0_n_n_0_1_1_wf

abbrev win0_0 : Pipeline.Window sig grid0 :=
  Pipeline.Window.ofSpec (Memref.whole main_v0) S1x40x160x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x40x160x160.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S160x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S20x160.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x5x20x20.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x1x160x160x160 : Shape := ⟨5, ![8, 1, 160, 160, 160]⟩
abbrev S32000x5 : Shape := ⟨2, ![32000, 5]⟩
abbrev S8x1x20x8x20x8x20x8 : Shape := ⟨8, ![8, 1, 20, 8, 20, 8, 20, 8]⟩
abbrev S8x20x20x20x1x8x8x8 : Shape := ⟨8, ![8, 20, 20, 20, 1, 8, 8, 8]⟩
abbrev S32000x1 : Shape := ⟨2, ![32000, 1]⟩
abbrev S32000 : Shape := ⟨1, ![32000]⟩
abbrev S_ : Shape := ⟨0, ![]⟩
abbrev S32000x4 : Shape := ⟨2, ![32000, 4]⟩
abbrev S32000x1x8x8x8 : Shape := ⟨5, ![32000, 1, 8, 8, 8]⟩

abbrev nBuf : Space → Nat
  | .hbm => 102
  | .vmem => 0
  | .smem => 0
  | _ => 0

abbrev bufTy : (tb : Table) → Fin (tcTables nBuf tb) → BufTy
  | .hbm, ⟨0, _⟩ => ⟨S8x1x160x160x160, .f32⟩
  | .hbm, ⟨1, _⟩ => ⟨S8x1x160x160x160, .f32⟩
  | .hbm, ⟨2, _⟩ => ⟨S32000x5, .i32⟩
  | .hbm, ⟨3, _⟩ => ⟨S8x1x20x8x20x8x20x8, .f32⟩
  | .hbm, ⟨4, _⟩ => ⟨S8x20x20x20x1x8x8x8, .f32⟩
  | .hbm, ⟨5, _⟩ => ⟨S32000x1, .i32⟩
  | .hbm, ⟨6, _⟩ => ⟨S32000, .i32⟩
  | .hbm, ⟨7, _⟩ => ⟨S32000x1, .i32⟩
  | .hbm, ⟨8, _⟩ => ⟨S32000, .i32⟩
  | .hbm, ⟨9, _⟩ => ⟨S32000x1, .i32⟩
  | .hbm, ⟨10, _⟩ => ⟨S32000, .i32⟩
  | .hbm, ⟨11, _⟩ => ⟨S32000x1, .i32⟩
  | .hbm, ⟨12, _⟩ => ⟨S32000, .i32⟩
  | .hbm, ⟨13, _⟩ => ⟨S_, .i32⟩
  | .hbm, ⟨14, _⟩ => ⟨S32000, .i32⟩
  | .hbm, ⟨15, _⟩ => ⟨S32000, .i1⟩
  | .hbm, ⟨16, _⟩ => ⟨S_, .i32⟩
  | .hbm, ⟨17, _⟩ => ⟨S32000, .i32⟩
  | .hbm, ⟨18, _⟩ => ⟨S32000, .i32⟩
  | .hbm, ⟨19, _⟩ => ⟨S32000, .i32⟩
  | .hbm, ⟨20, _⟩ => ⟨S_, .i32⟩
  | .hbm, ⟨21, _⟩ => ⟨S32000, .i32⟩
  | .hbm, ⟨22, _⟩ => ⟨S32000, .i1⟩
  | .hbm, ⟨23, _⟩ => ⟨S_, .i32⟩
  | .hbm, ⟨24, _⟩ => ⟨S32000, .i32⟩
  | .hbm, ⟨25, _⟩ => ⟨S32000, .i32⟩
  | .hbm, ⟨26, _⟩ => ⟨S32000, .i32⟩
  | .hbm, ⟨27, _⟩ => ⟨S_, .i32⟩
  | .hbm, ⟨28, _⟩ => ⟨S32000, .i32⟩
  | .hbm, ⟨29, _⟩ => ⟨S32000, .i1⟩
  | .hbm, ⟨30, _⟩ => ⟨S_, .i32⟩
  | .hbm, ⟨31, _⟩ => ⟨S32000, .i32⟩
  | .hbm, ⟨32, _⟩ => ⟨S32000, .i32⟩
  | .hbm, ⟨33, _⟩ => ⟨S32000, .i32⟩
  | .hbm, ⟨34, _⟩ => ⟨S_, .i32⟩
  | .hbm, ⟨35, _⟩ => ⟨S32000, .i32⟩
  | .hbm, ⟨36, _⟩ => ⟨S32000, .i1⟩
  | .hbm, ⟨37, _⟩ => ⟨S_, .i32⟩
  | .hbm, ⟨38, _⟩ => ⟨S32000, .i32⟩
  | .hbm, ⟨39, _⟩ => ⟨S32000, .i32⟩
  | .hbm, ⟨40, _⟩ => ⟨S32000, .i32⟩
  | .hbm, ⟨41, _⟩ => ⟨S32000x1, .i32⟩
  | .hbm, ⟨42, _⟩ => ⟨S32000x1, .i32⟩
  | .hbm, ⟨43, _⟩ => ⟨S32000x1, .i32⟩
  | .hbm, ⟨44, _⟩ => ⟨S32000x1, .i32⟩
  | .hbm, ⟨45, _⟩ => ⟨S32000x4, .i32⟩
  | .hbm, ⟨46, _⟩ => ⟨S32000x1x8x8x8, .f32⟩
  | .hbm, ⟨47, _⟩ => ⟨S8x1x20x8x20x8x20x8, .f32⟩
  | .hbm, ⟨48, _⟩ => ⟨S8x20x20x20x1x8x8x8, .f32⟩
  | .hbm, ⟨49, _⟩ => ⟨S32000x1, .i32⟩
  | .hbm, ⟨50, _⟩ => ⟨S32000, .i32⟩
  | .hbm, ⟨51, _⟩ => ⟨S32000x1, .i32⟩
  | .hbm, ⟨52, _⟩ => ⟨S32000, .i32⟩
  | .hbm, ⟨53, _⟩ => ⟨S32000x1, .i32⟩
  | .hbm, ⟨54, _⟩ => ⟨S32000, .i32⟩
  | .hbm, ⟨55, _⟩ => ⟨S32000x1, .i32⟩
  | .hbm, ⟨56, _⟩ => ⟨S32000, .i32⟩
  | .hbm, ⟨57, _⟩ => ⟨S_, .i32⟩
  | .hbm, ⟨58, _⟩ => ⟨S32000, .i32⟩
  | .hbm, ⟨59, _⟩ => ⟨S32000, .i1⟩
  | .hbm, ⟨60, _⟩ => ⟨S_, .i32⟩
  | .hbm, ⟨61, _⟩ => ⟨S32000, .i32⟩
  | .hbm, ⟨62, _⟩ => ⟨S32000, .i32⟩
  | .hbm, ⟨63, _⟩ => ⟨S32000, .i32⟩
  | .hbm, ⟨64, _⟩ => ⟨S_, .i32⟩
  | .hbm, ⟨65, _⟩ => ⟨S32000, .i32⟩
  | .hbm, ⟨66, _⟩ => ⟨S32000, .i1⟩
  | .hbm, ⟨67, _⟩ => ⟨S_, .i32⟩
  | .hbm, ⟨68, _⟩ => ⟨S32000, .i32⟩
  | .hbm, ⟨69, _⟩ => ⟨S32000, .i32⟩
  | .hbm, ⟨70, _⟩ => ⟨S32000, .i32⟩
  | .hbm, ⟨71, _⟩ => ⟨S_, .i32⟩
  | .hbm, ⟨72, _⟩ => ⟨S32000, .i32⟩
  | .hbm, ⟨73, _⟩ => ⟨S32000, .i1⟩
  | .hbm, ⟨74, _⟩ => ⟨S_, .i32⟩
  | .hbm, ⟨75, _⟩ => ⟨S32000, .i32⟩
  | .hbm, ⟨76, _⟩ => ⟨S32000, .i32⟩
  | .hbm, ⟨77, _⟩ => ⟨S32000, .i32⟩
  | .hbm, ⟨78, _⟩ => ⟨S_, .i32⟩
  | .hbm, ⟨79, _⟩ => ⟨S32000, .i32⟩
  | .hbm, ⟨80, _⟩ => ⟨S32000, .i1⟩
  | .hbm, ⟨81, _⟩ => ⟨S_, .i32⟩
  | .hbm, ⟨82, _⟩ => ⟨S32000, .i32⟩
  | .hbm, ⟨83, _⟩ => ⟨S32000, .i32⟩
  | .hbm, ⟨84, _⟩ => ⟨S32000, .i32⟩
  | .hbm, ⟨85, _⟩ => ⟨S32000x1, .i32⟩
  | .hbm, ⟨86, _⟩ => ⟨S32000x1, .i32⟩
  | .hbm, ⟨87, _⟩ => ⟨S32000x1, .i32⟩
  | .hbm, ⟨88, _⟩ => ⟨S32000x1, .i32⟩
  | .hbm, ⟨89, _⟩ => ⟨S32000x4, .i32⟩
  | .hbm, ⟨90, _⟩ => ⟨S32000x1x8x8x8, .f32⟩
  | .hbm, ⟨91, _⟩ => ⟨S32000x1x8x8x8, .f32⟩
  | .hbm, ⟨92, _⟩ => ⟨S32000x1x8x8x8, .f32⟩
  | .hbm, ⟨93, _⟩ => ⟨S_, .f32⟩
  | .hbm, ⟨94, _⟩ => ⟨S32000, .f32⟩
  | .hbm, ⟨95, _⟩ => ⟨S_, .f32⟩
  | .hbm, ⟨96, _⟩ => ⟨S32000, .f32⟩
  | .hbm, ⟨97, _⟩ => ⟨S32000, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | _, _ => ⟨S8x1x160x160x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_c_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_3 : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_5 : Ref sig .tc := ⟨.hbm, 34, rfl⟩
abbrev main_v25 : Ref sig .tc := ⟨.hbm, 35, rfl⟩
abbrev main_v26 : Ref sig .tc := ⟨.hbm, 36, rfl⟩
abbrev main_c_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_c_7 : Ref sig .tc := ⟨.hbm, 57, rfl⟩
abbrev main_v46 : Ref sig .tc := ⟨.hbm, 58, rfl⟩
abbrev main_v47 : Ref sig .tc := ⟨.hbm, 59, rfl⟩
abbrev main_c_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_c_9 : Ref sig .tc := ⟨.hbm, 64, rfl⟩
abbrev main_v51 : Ref sig .tc := ⟨.hbm, 65, rfl⟩
abbrev main_v52 : Ref sig .tc := ⟨.hbm, 66, rfl⟩
abbrev main_c_10 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_c_11 : Ref sig .tc := ⟨.hbm, 71, rfl⟩
abbrev main_v56 : Ref sig .tc := ⟨.hbm, 72, rfl⟩
abbrev main_v57 : Ref sig .tc := ⟨.hbm, 73, rfl⟩
abbrev main_c_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_c_13 : Ref sig .tc := ⟨.hbm, 78, rfl⟩
abbrev main_v61 : Ref sig .tc := ⟨.hbm, 79, rfl⟩
abbrev main_v62 : Ref sig .tc := ⟨.hbm, 80, rfl⟩
abbrev main_c_14 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst : Ref sig .tc := ⟨.hbm, 93, rfl⟩
abbrev main_v74 : Ref sig .tc := ⟨.hbm, 94, rfl⟩
abbrev main_cst_15 : Ref sig .tc := ⟨.hbm, 95, rfl⟩
abbrev main_v75 : Ref sig .tc := ⟨.hbm, 96, rfl⟩
abbrev main_v76 : Ref sig .tc := ⟨.hbm, 97, rfl⟩
abbrev main_cst_16 : Ref sig .tc := ⟨.hbm, 98, rfl⟩
abbrev main_v77 : Ref sig .tc := ⟨.hbm, 99, rfl⟩
abbrev main_cst_17 : Ref sig .tc := ⟨.hbm, 100, rfl⟩
abbrev main_v78 : Ref sig .tc := ⟨.hbm, 101, rfl⟩

abbrev nD : Nat := 1
abbrev τ : Topo := Topo.v7x

variable {F : FTy → Type} [FloatOps F]

class Facts₀ : Prop where
  shapeCasts_S8x1x160x160x160_S8x1x20x8x20x8x20x8 : S8x1x160x160x160.ShapeCasts S8x1x20x8x20x8x20x8
  transposes_S8x1x20x8x20x8x20x8_S8x20x20x20x1x8x8x8_0_2_4_6_1_3_5_7 : S8x1x20x8x20x8x20x8.Transposes [0, 2, 4, 6, 1, 3, 5, 7] S8x20x20x20x1x8x8x8
  slices_S32000x5_S32000x1_0_0 : S32000x5.Slices ![0, 0] S32000x1
  shapeCasts_S32000x1_S32000 : S32000x1.ShapeCasts S32000
  slices_S32000x5_S32000x1_0_2 : S32000x5.Slices ![0, 2] S32000x1
  slices_S32000x5_S32000x1_0_3 : S32000x5.Slices ![0, 3] S32000x1
  slices_S32000x5_S32000x1_0_4 : S32000x5.Slices ![0, 4] S32000x1
  bcast_S_S32000 : S_.BroadcastsInDim S32000 (![] : Fin 0 → Fin S32000.rank)
  bcast_S32000_S32000x1_0 : S32000.BroadcastsInDim S32000x1 (![0] : Fin 1 → Fin S32000x1.rank)
  concatenates_S32000x1_S32000x1_S32000x1_S32000x1_S32000x4_d1 : Shape.Concatenates [S32000x1, S32000x1, S32000x1, S32000x1] S32000x4 1
  reducesTo_S32000x1x8x8x8_S32000_d1_2_3_4 : S32000x1x8x8x8.ReducesTo [1, 2, 3, 4] S32000
  h_S_ : 0 < S_.numel
  reducesTo_S32000_S_d0 : S32000.ReducesTo [0] S_
  gather_S8x20x20x20x1x8x8x8_S32000x4_S32000x1x8x8x8_1234_0123_n_n_0123_1_11111888_wf : GatherDims.WF S8x20x20x20x1x8x8x8 S32000x4 S32000x1x8x8x8 [1, 2, 3, 4] [0, 1, 2, 3] [] [0, 1, 2, 3] [] 1 ![1, 1, 1, 1, 1, 8, 8, 8]

variable [Facts₀]

def gather_S8x20x20x20x1x8x8x8_S32000x4_S32000x1x8x8x8_1234_0123_n_n_0123_1_11111888 : GatherDims S8x20x20x20x1x8x8x8 S32000x4 S32000x1x8x8x8 where
  offsetDims := [1, 2, 3, 4]
  collapsedSliceDims := [0, 1, 2, 3]
  operandBatchingDims := []
  startIndicesBatchingDims := []
  startIndexMap := [0, 1, 2, 3]
  indexVectorDim := 1
  sliceSizes := ![1, 1, 1, 1, 1, 8, 8, 8]
  wf := gather_S8x20x20x20x1x8x8x8_S32000x4_S32000x1x8x8x8_1234_0123_n_n_0123_1_11111888_wf

class Facts : Prop extends Facts₀ where

variable [Facts]
-- ==== Proof.Spec.lean ====
/-
  The common value both programs compute, stated over the real numbers.

  For volumes `o` (the original) and `k` (the masked one) of shape 8 × 1 × 160 × 160 × 160 with finite entries
  and an index table `idx` of 32000 rows (sample, unused, block z, block y, block x), the result is

      ( ∑ₙ  ∑_{dz, dy, dx < 8}  | o[s, 0, 8·bz + dz, 8·by + dy, 8·bx + dx] − k[same] | ) / (32000 · 512)

  with (s, bz, by, bx) the entries 0, 2, 3, 4 of row n.  The kernel divides the sum of the block sums by
  16384000; the reference averages each block (÷ 512) and then the rows (÷ 32000): the same real number.
-/
import Idealize.ShloMosaic.PureOps.Ideal
import Idealize.ShloMosaic.Lib.ValueIdx
import Mathlib.Algebra.BigOperators.Field

noncomputable section

namespace Cert.Spec

open Idealize.ShloMosaic Idealize.ShloMosaic.ValueIdx

/-- The shape of either volume. -/
abbrev SVol : Shape := ⟨5, ![8, 1, 160, 160, 160]⟩
/-- The shape of the index table. -/
abbrev STab : Shape := ⟨2, ![32000, 5]⟩

/-- Position `8·z + d` along an axis of 160: offset `d` inside block `z`. -/
def vox (z : Fin 20) (d : Fin 8) : Fin 160 := ⟨8 * z.val + d.val, by omega⟩

/-- Every entry is a real number (neither infinity). -/
def Finite (x : SVol.Idx → EReal) : Prop := ∀ i, x i ≠ ⊤ ∧ x i ≠ ⊥

/-- Entry `k` of row `n` of the table, as a natural number. -/
def col (idx : STab.Idx → BitVec 32) (n : Fin 32000) (k : Fin 5) : ℕ := (idx (ix2 n k)).toNat

/-- Every row names a sample below 8 and block coordinates below 20 (read as unsigned words, so that a negative
    entry is excluded too). -/
def InRange (idx : STab.Idx → BitVec 32) : Prop :=
  ∀ n : Fin 32000, col idx n 0 < 8 ∧ col idx n 2 < 20 ∧ col idx n 3 < 20 ∧ col idx n 4 < 20

/-- The absolute difference of the two volumes at one voxel. -/
def absDiffR (o k : SVol.Idx → EReal) (b : Fin 8) (d h w : Fin 160) : ℝ :=
  |(o (ix5 b 0 d h w)).toReal - (k (ix5 b 0 d h w)).toReal|

/-- The sum of the absolute differences over the 8 × 8 × 8 block `(z, y, x)` of sample `b`. -/
def blockSumR (o k : SVol.Idx → EReal) (b : Fin 8) (z y x : Fin 20) : ℝ :=
  ∑ dz : Fin 8, ∑ dy : Fin 8, ∑ dx : Fin 8, absDiffR o k b (vox z dz) (vox y dy) (vox x dx)

/-- The block sum row `n` of the table selects. -/
def rowR (o k : SVol.Idx → EReal) (idx : STab.Idx → BitVec 32) (n : Fin 32000) : ℝ :=
  blockSumR o k ⟨col idx n 0 % 8, Nat.mod_lt _ (by decide)⟩ ⟨col idx n 2 % 20, Nat.mod_lt _ (by decide)⟩
    ⟨col idx n 3 % 20, Nat.mod_lt _ (by decide)⟩ ⟨col idx n 4 % 20, Nat.mod_lt _ (by decide)⟩

/-- The result: the mean over rows and block entries. -/
def resultR (o k : SVol.Idx → EReal) (idx : STab.Idx → BitVec 32) : ℝ :=
  (∑ n : Fin 32000, rowR o k idx n) / 16384000

/-- The mean over the rows of the blocks' means is the sum of the block sums over 32000 · 512. -/
theorem mean_of_means (o k : SVol.Idx → EReal) (idx : STab.Idx → BitVec 32) :
    (∑ n : Fin 32000, rowR o k idx n / 512) / 32000 = resultR o k idx := by
  unfold resultR
  rw [← Finset.sum_div, div_div]
  norm_num

/-- A finite extended real is its real part. -/
theorem Finite.coe_toReal {x : SVol.Idx → EReal} (h : Finite x) (i : SVol.Idx) : ((x i).toReal : EReal) = x i :=
  EReal.coe_toReal (h i).1 (h i).2

end Cert.Spec

end
-- ==== Proof.FrameB.lean ====
/-
  The frame of the block-sum program: it runs to the end, faults nowhere, and leaves its three arguments as launched.

  @main is three stretches of host lines (the two volumes re-laid as 8 × 160 × 160 × 160, and the 0/1 pooling matrix
  P[w, x] = [w / 8 = x] with its transpose), one pipelined region over a grid of 8 × 4 points, and nine more stretches
  of host lines (the table's four coordinates clamped and linearised, a gather out of the block sums, their sum and
  the final quotient).  At a grid point the body loads the two pooling matrices and five slabs of eight depth rows of
  either volume, and stores ONE value into its output block; it keeps nothing between points.  So the proof data
  name, for every point, each input's staging buffer at its block of the array the region found, and the output's at
  the stored value as a function of those blocks; the launch is the library's frame run of a region followed by host
  lines, and the arguments are read back unchanged because no host line writes them and no window stages them.
-/
import proofs.«403694_j34256659152993_3_alg».proof.Proof.Gen.Kernel.Launch
import proofs.«403694_j34256659152993_3_alg».proof.Proof.Gen.Kernel.Skeleton
import proofs.«403694_j34256659152993_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.HF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host lines before the region. -/
abbrev preOps : List (List (HloOp τ sig (Elt F))) := [hostOps0, hostOps0_1, hostOps0_2]
/-- The stretches of host lines after it. -/
abbrev tailOps : List (List (HloOp τ sig (Elt F))) :=
  [hostOps1, hostOps1_1, hostOps1_2, hostOps1_3, hostOps1_4, hostOps1_5, hostOps1_6, hostOps1_7, hostOps1_8]

/-- Core `c`'s buffer contents when the region is entered: what the host lines before it leave. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- @main is the host lines before the region, the region, and the host lines after it; so it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main preOps tailOps
    (by simp only [List.Forall]; exact ⟨hostOps0_sub, hostOps0_1_sub, hostOps0_2_sub⟩)
    (by simp only [List.Forall]; exact ⟨hostOps0_fresh, hostOps0_1_fresh, hostOps0_2_fresh⟩) main_chain

/-- The later lines touch the pipeline's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-- No line of this stretch writes an array of the pipeline: each writes its own result buffer only. -/
theorem keeps_hostOps1 : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem keeps_hostOps1_1 : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem keeps_hostOps1_2 : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem keeps_hostOps1_3 : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem keeps_hostOps1_4 : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem keeps_hostOps1_5 : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem keeps_hostOps1_6 : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem keeps_hostOps1_7 : ∀ op ∈ (hostOps1_7 : List (HloOp τ sig (Elt F))), ∀ w, Proc.devRef .tc (Pipeline.arrRef spec0 w) ∉ op.writes := by
  intro op hop
  simp only [hostOps1_7, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem keeps_hostOps1_8 : ∀ op ∈ (hostOps1_8 : List (HloOp τ sig (Elt F))), ∀ w, Proc.devRef .tc (Pipeline.arrRef spec0 w) ∉ op.writes := by
  intro op hop
  simp only [hostOps1_8, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- And they write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl
  · exact keeps_hostOps1 op hop
  · exact keeps_hostOps1_1 op hop
  · exact keeps_hostOps1_2 op hop
  · exact keeps_hostOps1_3 op hop
  · exact keeps_hostOps1_4 op hop
  · exact keeps_hostOps1_5 op hop
  · exact keeps_hostOps1_6 op hop
  · exact keeps_hostOps1_7 op hop
  · exact keeps_hostOps1_8 op hop

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes `main_arg0` either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, hostOps1_3, hostOps1_4, hostOps1_5, hostOps1_6, hostOps1_7, hostOps1_8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes `main_arg1` either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, hostOps1_5, hostOps1_6, hostOps1_7, hostOps1_8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes `main_arg2` either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, hostOps1_5, hostOps1_6, hostOps1_7, hostOps1_8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the frame run's post read at the three
    arguments (buffers no window stages, which the later lines do not write) is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's accesses -/

/-- The whole pooling matrix, and the whole of its transpose. -/
abbrev rP : Rect S160x20 := Rect.unit (s := S160x20) ![0, 0] S160x20.size inb_S160x20_S160x20_0_0
abbrev rPT : Rect S20x160 := Rect.unit (s := S20x160) ![0, 0] S20x160.size inb_S20x160_S20x160_0_0
/-- The five slabs of eight depth rows of a volume's block. -/
abbrev rD0 : Rect S1x40x160x160 := Rect.unit (s := S1x40x160x160) ![0, 0, 0, 0] S1x8x160x160.size inb_S1x40x160x160_S1x8x160x160_0_0_0_0
abbrev rD8 : Rect S1x40x160x160 := Rect.unit (s := S1x40x160x160) ![0, 8, 0, 0] S1x8x160x160.size inb_S1x40x160x160_S1x8x160x160_0_8_0_0
abbrev rD16 : Rect S1x40x160x160 := Rect.unit (s := S1x40x160x160) ![0, 16, 0, 0] S1x8x160x160.size inb_S1x40x160x160_S1x8x160x160_0_16_0_0
abbrev rD24 : Rect S1x40x160x160 := Rect.unit (s := S1x40x160x160) ![0, 24, 0, 0] S1x8x160x160.size inb_S1x40x160x160_S1x8x160x160_0_24_0_0
abbrev rD32 : Rect S1x40x160x160 := Rect.unit (s := S1x40x160x160) ![0, 32, 0, 0] S1x8x160x160.size inb_S1x40x160x160_S1x8x160x160_0_32_0_0
/-- The whole output block. -/
abbrev rO : Rect S1x5x20x20 := Rect.unit (s := S1x5x20x20) ![0, 0, 0, 0] S1x5x20x20.size inb_S1x5x20x20_S1x5x20x20_0_0_0_0

/-! ## What the body leaves in the output window's buffer -/

/-- The value the body stores, from the four input blocks: the five pooled slabs stacked. -/
def stored (x0 x1 : Vec F S1x40x160x160 .f32) (x2 : Vec F S160x20 .f32) (x3 : Vec F S20x160 .f32) : FVec F S1x5x20x20 .f32 :=
  k0_pay1 (k0_pay7 (k0_pay2 (View.ld x2 rP)) (k0_pay3 (View.ld x3 rPT))
    (k0_pay4 (View.ld x2 rP) (View.ld x3 rPT) (View.ld x0 rD0) (View.ld x1 rD0))
    (k0_pay5 (View.ld x2 rP) (View.ld x3 rPT) (View.ld x0 rD8) (View.ld x1 rD8))
    (k0_pay6 (View.ld x0 rD16)) (View.ld x1 rD16) (View.ld x0 rD24) (View.ld x1 rD24) (View.ld x0 rD32) (View.ld x1 rD32))

/-- Window 4's staging buffer after the body: its one store, which covers it. -/
def out0_4 (x0 x1 : Vec F S1x40x160x160 .f32) (x2 : Vec F S160x20 .f32) (x3 : Vec F S20x160 .f32) : Vec F S1x5x20x20 .f32 :=
  View.canon [⟨rO, stored x0 x1 x2 x3⟩]

theorem cover0_4 (p0 : Vec F S1x5x20x20 .f32) (y : S1x5x20x20.Idx) :
    ∃ pc ∈ ([⟨rO, p0⟩] : List (View.Piece (Elt F) S1x5x20x20 .f32)), y ∈ pc.1.set :=
  View.cover_of_tiled [⟨rO, p0⟩] S1x5x20x20.size (by rfl) y

/-! ## The body's triple -/

set_option maxHeartbeats 4000000 in
/-- The kernel body on whole staging memrefs, the inputs' at read contents and the output's at anything, runs to the
    continuation holding the inputs' as they were and the output's at `out0_4` of the inputs'. -/
theorem sound_kernel (c : Dev nD) (E : Set ℕ) (i : grid0.Coords)
    (arg2 : Memref sig .tc .vmem S1x40x160x160 .f32) (harg2 : arg2.IsWhole) (arg3 : Memref sig .tc .vmem S1x40x160x160 .f32) (harg3 : arg3.IsWhole)
    (arg4 : Memref sig .tc .vmem S160x20 .f32) (harg4 : arg4.IsWhole) (arg5 : Memref sig .tc .vmem S20x160 .f32) (harg5 : arg5.IsWhole)
    (arg6 : Memref sig .tc .vmem S1x5x20x20 .f32) (harg6 : arg6.IsWhole)
    (x0 x1 : Vec F S1x40x160x160 .f32) (x2 : Vec F S160x20 .f32) (x3 : Vec F S20x160 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0_4 x0 x1 x2 x3)) -∗ K ⟨⟩))
      ⊢ wp frame (wpE (defs₀ (F := F)) Variants.none c none) E (cc0__block_sum_kernel i arg2 harg2 arg3 harg3 arg4 harg4 arg5 harg5 arg6 harg6) K := by
  simp only [cc0__block_sum_kernel_eq_skeleton]; unfold cc0__block_sum_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover0_4 _)

/-! ## The pipeline's proof data -/

/-- The proof data of the pipeline on core `c`: the arrays as the region finds them; after the body at point `t` each
    input's buffer at its block and the output's at `out0_4` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the three arguments end as launched, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.Kernel.HF

end
-- ==== Proof.FrameI.lean ====
/-
  The frame of the block-sum program: it runs to the end, faults nowhere, and leaves its three arguments as launched.

  @main is three stretches of host lines (the two volumes re-laid as 8 × 160 × 160 × 160, and the 0/1 pooling matrix
  P[w, x] = [w / 8 = x] with its transpose), one pipelined region over a grid of 8 × 4 points, and nine more stretches
  of host lines (the table's four coordinates clamped and linearised, a gather out of the block sums, their sum and
  the final quotient).  At a grid point the body loads the two pooling matrices and five slabs of eight depth rows of
  either volume, and stores ONE value into its output block; it keeps nothing between points.  So the proof data
  name, for every point, each input's staging buffer at its block of the array the region found, and the output's at
  the stored value as a function of those blocks; the launch is the library's frame run of a region followed by host
  lines, and the arguments are read back unchanged because no host line writes them and no window stages them.
-/
import proofs.«403694_j34256659152993_3_alg».proof.Proof.Gen.KernelIdeal.Launch
import proofs.«403694_j34256659152993_3_alg».proof.Proof.Gen.KernelIdeal.Skeleton
import proofs.«403694_j34256659152993_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.HF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The stretches of host lines before the region. -/
abbrev preOps : List (List (HloOp τ sig (Elt F))) := [hostOps0, hostOps0_1, hostOps0_2]
/-- The stretches of host lines after it. -/
abbrev tailOps : List (List (HloOp τ sig (Elt F))) :=
  [hostOps1, hostOps1_1, hostOps1_2, hostOps1_3, hostOps1_4, hostOps1_5, hostOps1_6, hostOps1_7, hostOps1_8]

/-- Core `c`'s buffer contents when the region is entered: what the host lines before it leave. -/
abbrev V0 (c : Dev nD) : Valuation τ sig (Elt F) := StableHlo.after (List.flatten preOps) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-- @main is the host lines before the region, the region, and the host lines after it; so it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main preOps tailOps
    (by simp only [List.Forall]; exact ⟨hostOps0_sub, hostOps0_1_sub, hostOps0_2_sub⟩)
    (by simp only [List.Forall]; exact ⟨hostOps0_fresh, hostOps0_1_fresh, hostOps0_2_fresh⟩) main_chain

/-- The later lines touch the pipeline's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop

/-- No line of this stretch writes an array of the pipeline: each writes its own result buffer only. -/
theorem keeps_hostOps1 : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem keeps_hostOps1_1 : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem keeps_hostOps1_2 : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem keeps_hostOps1_3 : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem keeps_hostOps1_4 : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem keeps_hostOps1_5 : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem keeps_hostOps1_6 : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem keeps_hostOps1_7 : ∀ op ∈ (hostOps1_7 : List (HloOp τ sig (Elt F))), ∀ w, Proc.devRef .tc (Pipeline.arrRef spec0 w) ∉ op.writes := by
  intro op hop
  simp only [hostOps1_7, List.mem_cons, List.mem_nil_iff, or_false] at hop
  rcases hop with rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
/-- No line of this stretch writes an array of the pipeline: each writes its own result buffer only. -/
theorem keeps_hostOps1_8 : ∀ op ∈ (hostOps1_8 : List (HloOp τ sig (Elt F))), ∀ w, Proc.devRef .tc (Pipeline.arrRef spec0 w) ∉ op.writes := by
  intro op hop
  simp only [hostOps1_8, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- And they write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl
  · exact keeps_hostOps1 op hop
  · exact keeps_hostOps1_1 op hop
  · exact keeps_hostOps1_2 op hop
  · exact keeps_hostOps1_3 op hop
  · exact keeps_hostOps1_4 op hop
  · exact keeps_hostOps1_5 op hop
  · exact keeps_hostOps1_6 op hop
  · exact keeps_hostOps1_7 op hop
  · exact keeps_hostOps1_8 op hop

/-- No host line before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes `main_arg0` either: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, hostOps1_3, hostOps1_4, hostOps1_5, hostOps1_6, hostOps1_7, hostOps1_8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes `main_arg1` either: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, hostOps1_5, hostOps1_6, hostOps1_7, hostOps1_8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host line after the region writes `main_arg2` either: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, hostOps1_5, hostOps1_6, hostOps1_7, hostOps1_8, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the frame run's post read at the three
    arguments (buffers no window stages, which the later lines do not write) is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The body's accesses -/

/-- The whole pooling matrix, and the whole of its transpose. -/
abbrev rP : Rect S160x20 := Rect.unit (s := S160x20) ![0, 0] S160x20.size inb_S160x20_S160x20_0_0
abbrev rPT : Rect S20x160 := Rect.unit (s := S20x160) ![0, 0] S20x160.size inb_S20x160_S20x160_0_0
/-- The five slabs of eight depth rows of a volume's block. -/
abbrev rD0 : Rect S1x40x160x160 := Rect.unit (s := S1x40x160x160) ![0, 0, 0, 0] S1x8x160x160.size inb_S1x40x160x160_S1x8x160x160_0_0_0_0
abbrev rD8 : Rect S1x40x160x160 := Rect.unit (s := S1x40x160x160) ![0, 8, 0, 0] S1x8x160x160.size inb_S1x40x160x160_S1x8x160x160_0_8_0_0
abbrev rD16 : Rect S1x40x160x160 := Rect.unit (s := S1x40x160x160) ![0, 16, 0, 0] S1x8x160x160.size inb_S1x40x160x160_S1x8x160x160_0_16_0_0
abbrev rD24 : Rect S1x40x160x160 := Rect.unit (s := S1x40x160x160) ![0, 24, 0, 0] S1x8x160x160.size inb_S1x40x160x160_S1x8x160x160_0_24_0_0
abbrev rD32 : Rect S1x40x160x160 := Rect.unit (s := S1x40x160x160) ![0, 32, 0, 0] S1x8x160x160.size inb_S1x40x160x160_S1x8x160x160_0_32_0_0
/-- The whole output block. -/
abbrev rO : Rect S1x5x20x20 := Rect.unit (s := S1x5x20x20) ![0, 0, 0, 0] S1x5x20x20.size inb_S1x5x20x20_S1x5x20x20_0_0_0_0

/-! ## What the body leaves in the output window's buffer -/

/-- The value the body stores, from the four input blocks: the five pooled slabs stacked. -/
def stored (x0 x1 : Vec F S1x40x160x160 .f32) (x2 : Vec F S160x20 .f32) (x3 : Vec F S20x160 .f32) : FVec F S1x5x20x20 .f32 :=
  k0_pay1 (k0_pay7 (k0_pay2 (View.ld x2 rP)) (k0_pay3 (View.ld x3 rPT))
    (k0_pay4 (View.ld x2 rP) (View.ld x3 rPT) (View.ld x0 rD0) (View.ld x1 rD0))
    (k0_pay5 (View.ld x2 rP) (View.ld x3 rPT) (View.ld x0 rD8) (View.ld x1 rD8))
    (k0_pay6 (View.ld x0 rD16)) (View.ld x1 rD16) (View.ld x0 rD24) (View.ld x1 rD24) (View.ld x0 rD32) (View.ld x1 rD32))

/-- Window 4's staging buffer after the body: its one store, which covers it. -/
def out0_4 (x0 x1 : Vec F S1x40x160x160 .f32) (x2 : Vec F S160x20 .f32) (x3 : Vec F S20x160 .f32) : Vec F S1x5x20x20 .f32 :=
  View.canon [⟨rO, stored x0 x1 x2 x3⟩]

theorem cover0_4 (p0 : Vec F S1x5x20x20 .f32) (y : S1x5x20x20.Idx) :
    ∃ pc ∈ ([⟨rO, p0⟩] : List (View.Piece (Elt F) S1x5x20x20 .f32)), y ∈ pc.1.set :=
  View.cover_of_tiled [⟨rO, p0⟩] S1x5x20x20.size (by rfl) y

/-! ## The body's triple -/

set_option maxHeartbeats 4000000 in
/-- The kernel body on whole staging memrefs, the inputs' at read contents and the output's at anything, runs to the
    continuation holding the inputs' as they were and the output's at `out0_4` of the inputs'. -/
theorem sound_kernel (c : Dev nD) (E : Set ℕ) (i : grid0.Coords)
    (arg2 : Memref sig .tc .vmem S1x40x160x160 .f32) (harg2 : arg2.IsWhole) (arg3 : Memref sig .tc .vmem S1x40x160x160 .f32) (harg3 : arg3.IsWhole)
    (arg4 : Memref sig .tc .vmem S160x20 .f32) (harg4 : arg4.IsWhole) (arg5 : Memref sig .tc .vmem S20x160 .f32) (harg5 : arg5.IsWhole)
    (arg6 : Memref sig .tc .vmem S1x5x20x20 .f32) (harg6 : arg6.IsWhole)
    (x0 x1 : Vec F S1x40x160x160 .f32) (x2 : Vec F S160x20 .f32) (x3 : Vec F S20x160 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (out0_4 x0 x1 x2 x3)) -∗ K ⟨⟩))
      ⊢ wp frame (wpE (defs₀ (F := F)) Variants.none c none) E (cc0__block_sum_kernel i arg2 harg2 arg3 harg3 arg4 harg4 arg5 harg5 arg6 harg6) K := by
  simp only [cc0__block_sum_kernel_eq_skeleton]; unfold cc0__block_sum_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (cover0_4 _)

/-! ## The pipeline's proof data -/

/-- The proof data of the pipeline on core `c`: the arrays as the region finds them; after the body at point `t` each
    input's buffer at its block and the output's at `out0_4` of the input blocks; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame: the three arguments end as launched, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (run_main m ρ)

end Cert.KernelIdeal.HF

end
-- ==== Proof.PreDecode.lean ====
/-
  The precondition, decoded.

  The printed predicate is a conjunction of ten "for all entries" tests joined by bitwise and: the absolute value of
  every entry of either volume is below +∞, and columns 0, 2, 3, 4 of the index table are, as signed words, at least 0
  and below 8 (column 0) or below 20 (columns 2, 3, 4).  Each test is a reduction by and over all entries, from the
  constant 1; the predicate being 1 therefore gives each test at each entry.

  * |x| < +∞ in the extended reals excludes both infinities (|±∞| = +∞), so every entry of either volume is a real.
  * A 32-bit word that is ≥ 0 and < n as a signed number (n small) has its sign bit clear, so its unsigned value is its
    signed value and lies below n.
  * Column k of the table is printed as the [32000 × 1] slice at offset (0, k) reshaped to [32000]; row n of that vector
    is entry (n, k) of the table: both sit at row-major position n of their arrays.
-/
import proofs.«403694_j34256659152993_3_alg».proof.Proof.Gen.Pre_finite_inputs
import proofs.«403694_j34256659152993_3_alg».proof.Proof.Spec
import Idealize.ShloMosaic.Lib.ReduceAll
import Idealize.ShloMosaic.Lib.StableHlo.Predicate
import Idealize.ShloMosaic.Lib.ValueIdx
import Idealize.ShloMosaic.Lib.ValueLayout
import Idealize.ShloMosaic.Lib.Pipeline.Value
import Idealize.ShloMosaic.PureOps.Ideal.Laws

noncomputable section

namespace Cert.PreDecode

open Idealize.ShloMosaic Idealize.ShloMosaic.ValueIdx
open Cert.Pre_finite_inputs

/-- The scalar shape has one index. -/
instance : Subsingleton S_.Idx := ⟨fun a b => funext fun d => d.elim0⟩

/-! ## An entry whose absolute value is below +∞ is a real -/

/-- The pattern 0x7F800000 denotes +∞. -/
theorem inf_eq : Ideal.ofBits .f32 0x7F800000#32 = (⊤ : EReal) := by simp [Ideal.ofBits, Ideal.ieee]

/-- |x| = max x (−x) below +∞: x is neither infinity, since max ⊤ ⊥ = max ⊥ ⊤ = ⊤. -/
theorem real_of_abs_lt (x : EReal) (h : BitVec.ofBool (decide (max x (-x) < Ideal.ofBits .f32 0x7F800000#32)) = 1#1) :
    x ≠ ⊤ ∧ x ≠ ⊥ := by
  rw [inf_eq, StableHlo.Predicate.ofBool_eq_one_iff, decide_eq_true_eq] at h
  constructor
  · rintro rfl; simp at h
  · rintro rfl; simp at h

/-! ## A word in [0, n) signed is below n unsigned -/

theorem toNat_lt_of_signed (w : BitVec 32) (n : ℕ) (hn : n < 2 ^ 31) (h0 : IntOp.cmpi .sge w 0#32 = 1#1)
    (h1 : IntOp.cmpi .slt w (BitVec.ofNat 32 n) = 1#1) : w.toNat < n := by
  have a0 : (0#32 : BitVec 32).sle w = true := (StableHlo.Predicate.ofBool_eq_one_iff _).1 h0
  have a1 : w.slt (BitVec.ofNat 32 n) = true := (StableHlo.Predicate.ofBool_eq_one_iff _).1 h1
  rw [BitVec.sle_iff_toInt_le] at a0
  rw [BitVec.slt_iff_toInt_lt, StableHlo.Predicate.toInt_ofNat_small n hn] at a1
  have z : (0#32 : BitVec 32).toInt = 0 := by decide
  rw [z] at a0
  -- the signed value is non-negative: the sign bit is clear and the two readings agree
  have hw : w.toInt = w.toNat := by
    rw [BitVec.toInt_eq_toNat_cond] at a0 ⊢
    have := w.isLt
    split at a0 <;> omega
  omega

/-! ## Column k of the table as the predicate reads it -/

theorem col_read (a2 : IVec S32000x5 32) (o : ℕ) (h : S32000x5.Slices ![0, o] S32000x1) (hc : S32000x1.ShapeCasts S32000)
    (n : Fin 32000) (k : Fin 5) (hk : k.val = o) :
    shapeCast S32000 (extractStridedSlice S32000x1 ![0, o] a2 h) hc (ix1 n) = a2 (ix2 n k) := by
  refine (shapeCast_apply _ hc (ix1 n) (ix2 n (0 : Fin 1)) ?_).trans ?_
  · rw [Shape.rowMajor_val_one, Shape.rowMajor_val_two]
    show n.val * 1 + 0 = n.val
    omega
  · exact slice2_axis1_apply o a2 h n 0 k (by rw [hk]; rfl)

/-! ## The precondition decoded -/

theorem of_pre (a0 a1 : FVec Ideal Cert.Pre_finite_inputs.S8x1x160x160x160 .f32) (a2 : IVec Cert.Pre_finite_inputs.S32000x5 32)
    (h : Cert.Pre_finite_inputs.fn (F := Ideal) a0 a1 a2 = fun _ => 1#1) :
    Cert.Spec.Finite a0 ∧ Cert.Spec.Finite a1 ∧ Cert.Spec.InRange a2 := by
  have e := congrFun h ix0
  dsimp only [fn, fn_part1, fn_part2, fn_part3] at e
  simp only [andi, IntOp.andi_eq_one] at e
  obtain ⟨⟨⟨⟨⟨⟨⟨⟨⟨f0, f1⟩, c0ge⟩, c0lt⟩, c2ge⟩, c2lt⟩, c3ge⟩, c3lt⟩, c4ge⟩, c4lt⟩ := e
  refine ⟨fun i => real_of_abs_lt _ (Host.reduce_andi_all _ _ _ _ _ f0 i),
    fun i => real_of_abs_lt _ (Host.reduce_andi_all _ _ _ _ _ f1 i), fun n => ?_⟩
  -- each column's two tests at row n, the column read as the table's entry
  have g0 := Host.reduce_andi_all _ _ _ _ _ c0ge (ix1 n)
  have l0 := Host.reduce_andi_all _ _ _ _ _ c0lt (ix1 n)
  have g2 := Host.reduce_andi_all _ _ _ _ _ c2ge (ix1 n)
  have l2 := Host.reduce_andi_all _ _ _ _ _ c2lt (ix1 n)
  have g3 := Host.reduce_andi_all _ _ _ _ _ c3ge (ix1 n)
  have l3 := Host.reduce_andi_all _ _ _ _ _ c3lt (ix1 n)
  have g4 := Host.reduce_andi_all _ _ _ _ _ c4ge (ix1 n)
  have l4 := Host.reduce_andi_all _ _ _ _ _ c4lt (ix1 n)
  simp only [cmpi, col_read a2 0 _ _ n 0 rfl, col_read a2 2 _ _ n 2 rfl, col_read a2 3 _ _ n 3 rfl,
    col_read a2 4 _ _ n 4 rfl] at g0 l0 g2 l2 g3 l3 g4 l4
  exact ⟨toNat_lt_of_signed _ 8 (by norm_num) g0 l0, toNat_lt_of_signed _ 20 (by norm_num) g2 l2,
    toNat_lt_of_signed _ 20 (by norm_num) g3 l3, toNat_lt_of_signed _ 20 (by norm_num) g4 l4⟩

end Cert.PreDecode

end
-- ==== Proof.KStored.lean ====
/-
  What the kernel body stores, read at one entry, at the ideal values (extended reals, every operation exact).

  Each of the five slabs is  Pᵀ · (D · P)  with  D[h, w] = ∑_{d < 8} |a[d, h, w] − b[d, h, w]|  the depth sum of the
  absolute difference of the two blocks of eight depth rows and  P[w, x] = [w / 8 = x]  the pooling matrix.  With finite
  entries every term is a real number; the 0/1 factors keep the rows  h ∈ [8y, 8y + 8)  and the columns
  w ∈ [8x, 8x + 8),  so entry (y, x) is the sum of |a − b| over the 8 × 8 × 8 cell.  The five results are stacked on
  axis 0, slab lb reading the depth rows 8·lb … 8·lb + 7 of the block.
-/
import proofs.«403694_j34256659152993_3_alg».proof.Proof.FrameI
import proofs.«403694_j34256659152993_3_alg».proof.Proof.Spec
import Idealize.ShloMosaic.Lib.ValueIdx
import Idealize.ShloMosaic.PureOps.Ideal.Laws
import Idealize.ShloMosaic.Lib.Pipeline.Value

noncomputable section

namespace Cert.KernelIdeal.KV

open Idealize.ShloMosaic Idealize.ShloMosaic.TcCoe Idealize.ShloMosaic.ValueIdx Idealize.SL.Sem
open Cert.KernelIdeal Cert.KernelIdeal.Gen Cert.Spec

/-! ### Real sums read as extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_select (f : Fin 160 → ℝ) (x : Fin 20) :
    ∑ w : Fin 160, f w * (if w.val / 8 = x.val then (1 : ℝ) else 0) = ∑ d : Fin 8, f (vox x d) := by
  simp only [mul_ite, mul_one, mul_zero]
  rw [← Finset.sum_filter]
  symm
  refine Finset.sum_bij (fun d _ => vox x d) ?_ ?_ ?_ ?_
  · intro d _
    simp only [Finset.mem_filter, Finset.mem_univ, true_and, vox]
    have := d.isLt; omega
  · intro d1 _ d2 _ h
    have h' := congrArg Fin.val h
    simp only [vox] at h'
    exact Fin.ext (by omega)
  · intro w hw
    simp only [Finset.mem_filter, Finset.mem_univ, true_and] at hw
    refine ⟨⟨w.val % 8, Nat.mod_lt _ (by decide)⟩, Finset.mem_univ _, ?_⟩
    apply Fin.ext
    simp only [vox]
    omega
  · intro d _; rfl

theorem pooled (A : Fin 8 → Fin 160 → Fin 160 → ℝ) (y x : Fin 20) :
    ∑ h : Fin 160, (if h.val / 8 = y.val then (1 : ℝ) else 0) * (∑ w : Fin 160, (∑ d : Fin 8, A d h w) * (if w.val / 8 = x.val then (1 : ℝ) else 0))
      = ∑ d : Fin 8, ∑ dy : Fin 8, ∑ dx : Fin 8, A d (vox y dy) (vox x dx) := by
  have e1 : ∀ h : Fin 160, (∑ w : Fin 160, (∑ d : Fin 8, A d h w) * (if w.val / 8 = x.val then (1 : ℝ) else 0))
      = ∑ dx : Fin 8, ∑ d : Fin 8, A d h (vox x dx) := fun h => sum_select (fun w => ∑ d : Fin 8, A d h w) x
  simp only [e1]
  have e2 := sum_select (fun h => ∑ dx : Fin 8, ∑ d : Fin 8, A d h (vox x dx)) y
  simp only [mul_comm] at e2 ⊢
  rw [e2]
  exact (Finset.sum_congr rfl fun dy _ => Finset.sum_comm).trans Finset.sum_comm

theorem lhs1_0 (j : S160x20.Idx) (k : dot_S160x160_S160x20_S160x20_1_0_0_1_n_n.contr.Idx) :
    (dot_S160x160_S160x20_S160x20_1_0_0_1_n_n.lhsIdx j k 0 : ℕ) = j 0 := by
  simp [DotDims.lhsIdx, dot_S160x160_S160x20_S160x20_1_0_0_1_n_n]; rfl
theorem lhs1_1 (j : S160x20.Idx) (k : dot_S160x160_S160x20_S160x20_1_0_0_1_n_n.contr.Idx) :
    (dot_S160x160_S160x20_S160x20_1_0_0_1_n_n.lhsIdx j k 1 : ℕ) = k ⟨0, by decide⟩ := by
  simp [DotDims.lhsIdx, dot_S160x160_S160x20_S160x20_1_0_0_1_n_n]; rfl
theorem rhs1_0 (j : S160x20.Idx) (k : dot_S160x160_S160x20_S160x20_1_0_0_1_n_n.contr.Idx) :
    (dot_S160x160_S160x20_S160x20_1_0_0_1_n_n.rhsIdx j k 0 : ℕ) = k ⟨0, by decide⟩ := by
  simp [DotDims.rhsIdx, dot_S160x160_S160x20_S160x20_1_0_0_1_n_n]; rfl
theorem rhs1_1 (j : S160x20.Idx) (k : dot_S160x160_S160x20_S160x20_1_0_0_1_n_n.contr.Idx) :
    (dot_S160x160_S160x20_S160x20_1_0_0_1_n_n.rhsIdx j k 1 : ℕ) = j 1 := by
  simp [DotDims.rhsIdx, dot_S160x160_S160x20_S160x20_1_0_0_1_n_n]; rfl

theorem lhs2_0 (j : S20x20.Idx) (k : dot_S20x160_S160x20_S20x20_1_0_0_1_n_n.contr.Idx) :
    (dot_S20x160_S160x20_S20x20_1_0_0_1_n_n.lhsIdx j k 0 : ℕ) = j 0 := by
  simp [DotDims.lhsIdx, dot_S20x160_S160x20_S20x20_1_0_0_1_n_n]; rfl
theorem lhs2_1 (j : S20x20.Idx) (k : dot_S20x160_S160x20_S20x20_1_0_0_1_n_n.contr.Idx) :
    (dot_S20x160_S160x20_S20x20_1_0_0_1_n_n.lhsIdx j k 1 : ℕ) = k ⟨0, by decide⟩ := by
  simp [DotDims.lhsIdx, dot_S20x160_S160x20_S20x20_1_0_0_1_n_n]; rfl
theorem rhs2_0 (j : S20x20.Idx) (k : dot_S20x160_S160x20_S20x20_1_0_0_1_n_n.contr.Idx) :
    (dot_S20x160_S160x20_S20x20_1_0_0_1_n_n.rhsIdx j k 0 : ℕ) = k ⟨0, by decide⟩ := by
  simp [DotDims.rhsIdx, dot_S20x160_S160x20_S20x20_1_0_0_1_n_n]; rfl
theorem rhs2_1 (j : S20x20.Idx) (k : dot_S20x160_S160x20_S20x20_1_0_0_1_n_n.contr.Idx) :
    (dot_S20x160_S160x20_S20x20_1_0_0_1_n_n.rhsIdx j k 1 : ℕ) = j 1 := by
  simp [DotDims.rhsIdx, dot_S20x160_S160x20_S20x20_1_0_0_1_n_n]; rfl

/-- The first product at (h, x): the sum over the 160 columns. -/
theorem mm1_apply (lhs : FVec Ideal S160x160 .f32) (rhs : FVec Ideal S160x20 .f32) (h : Fin 160) (x : Fin 20) :
    matmul dot_S160x160_S160x20_S160x20_1_0_0_1_n_n (some .fp32) lhs rhs (constant (F := Ideal) S160x20 .f32 0x00000000#32) (ix2 h x)
      = ∑ w : Fin 160, lhs (ix2 h w) * rhs (ix2 w x) := by
  refine (Ideal.matmul_constant_zero_apply _ _ lhs rhs (ix2 h x)).trans ?_
  rw [← Equiv.sum_comp (contrEquiv1 dot_S160x160_S160x20_S160x20_1_0_0_1_n_n 160 rfl rfl).symm]
  refine Finset.sum_congr rfl fun w _ => ?_
  congr 2
  · apply Shape.idx_ext₂
    · rw [lhs1_0]
    · exact (lhs1_1 _ _).trans (contrEquiv1_symm_val dot_S160x160_S160x20_S160x20_1_0_0_1_n_n 160 rfl rfl w)
  · apply Shape.idx_ext₂
    · exact (rhs1_0 _ _).trans (contrEquiv1_symm_val dot_S160x160_S160x20_S160x20_1_0_0_1_n_n 160 rfl rfl w)
    · rw [rhs1_1]

/-- The second product at (y, x): the sum over the 160 rows. -/
theorem mm2_apply (lhs : FVec Ideal S20x160 .f32) (rhs : FVec Ideal S160x20 .f32) (y : Fin 20) (x : Fin 20) :
    matmul dot_S20x160_S160x20_S20x20_1_0_0_1_n_n (some .fp32) lhs rhs (constant (F := Ideal) S20x20 .f32 0x00000000#32) (ix2 y x)
      = ∑ h : Fin 160, lhs (ix2 y h) * rhs (ix2 h x) := by
  refine (Ideal.matmul_constant_zero_apply _ _ lhs rhs (ix2 y x)).trans ?_
  rw [← Equiv.sum_comp (contrEquiv1 dot_S20x160_S160x20_S20x20_1_0_0_1_n_n 160 rfl rfl).symm]
  refine Finset.sum_congr rfl fun w _ => ?_
  congr 2
  · apply Shape.idx_ext₂
    · rw [lhs2_0]
    · exact (lhs2_1 _ _).trans (contrEquiv1_symm_val dot_S20x160_S160x20_S20x20_1_0_0_1_n_n 160 rfl rfl w)
  · apply Shape.idx_ext₂
    · exact (rhs2_0 _ _).trans (contrEquiv1_symm_val dot_S20x160_S160x20_S20x20_1_0_0_1_n_n 160 rfl rfl w)
    · rw [rhs2_1]

/-- The depth sum at (h, w). -/
theorem red_apply (src : FVec Ideal S8x160x160 .f32) (h w : Fin 160) :
    multiReduction (F := Ideal) .add [0] S160x160 src 0x00000000#32 reduces_S8x160x160_S160x160 (.inl rfl) rfl (ix2 h w)
      = ∑ d : Fin 8, src (ix3 d h w) := by
  refine (Ideal.multiReduction_add_single src _ reduces_S8x160x160_S160x160 _ _ (ix2 h w)).trans ?_
  show ∑ d : Fin 8, src (reduces_S8x160x160_S160x160.lift (ix2 h w) d) = _
  refine Finset.sum_congr rfl fun d _ => congrArg src ?_
  funext a
  match a with
  | ⟨0, _⟩ => exact Fin.ext rfl
  | ⟨1, _⟩ => exact Fin.ext rfl
  | ⟨2, _⟩ => exact Fin.ext rfl

/-- A slab of eight depth rows at offset K, with its unit axis dropped, read at (d, h, w). -/
theorem cast_ld_apply (X : Vec Ideal S1x40x160x160 .f32) (K : ℕ)
    (inb : ∀ a, (![0, K, 0, 0] : Fin 4 → ℕ) a + S1x8x160x160.size a ≤ S1x40x160x160.size a) (hK : K + 8 ≤ 40)
    (d : Fin 8) (h w : Fin 160) :
    shapeCast S8x160x160 (View.ld X (Rect.unit (s := S1x40x160x160) ![0, K, 0, 0] S1x8x160x160.size inb)) shapeCasts_S1x8x160x160_S8x160x160 (ix3 d h w)
      = X (ix4 0 (⟨K + d.val, by omega⟩ : Fin 40) h w) := by
  refine (shapeCast_dropUnit_apply ![8, 160, 160] _ shapeCasts_S1x8x160x160_S8x160x160 (ix3 d h w)).trans ?_
  show X ((Rect.unit (s := S1x40x160x160) ![0, K, 0, 0] S1x8x160x160.size inb).idx _) = _
  refine congrArg X ?_
  funext a
  match a with
  | ⟨0, _⟩ => exact Fin.ext rfl
  | ⟨1, _⟩ => exact Fin.ext (by show K + 1 * d.val = K + d.val; omega)
  | ⟨2, _⟩ => exact Fin.ext (by show 0 + 1 * h.val = h.val; omega)
  | ⟨3, _⟩ => exact Fin.ext (by show 0 + 1 * w.val = w.val; omega)

/-! ### One slab -/

/-- One slab's 20 × 20 result from its two blocks of eight depth rows: the depth sum of the absolute difference,
    multiplied by the pooling matrix on the right and by its transpose on the left. -/
def core (p : FVec Ideal S160x20 .f32) (pt : FVec Ideal S20x160 .f32) (a b : FVec Ideal S8x160x160 .f32) : FVec Ideal S20x20 .f32 :=
  matmul dot_S20x160_S160x20_S20x20_1_0_0_1_n_n (some .fp32) pt
    (matmul dot_S160x160_S160x20_S160x20_1_0_0_1_n_n (some .fp32)
      (multiReduction (F := Ideal) .add [0] S160x160 (absf (subf a b)) 0x00000000#32 reduces_S8x160x160_S160x160 (.inl rfl) rfl) p
      (constant (F := Ideal) S160x20 .f32 0x00000000#32))
    (constant (F := Ideal) S20x20 .f32 0x00000000#32)

/-- The slab's result with its leading unit axis. -/
def slab (p : FVec Ideal S160x20 .f32) (pt : FVec Ideal S20x160 .f32) (a b : FVec Ideal S8x160x160 .f32) : FVec Ideal S1x20x20 .f32 :=
  shapeCast S1x20x20 (core p pt a b) shapeCasts_S20x20_S1x20x20

/-- A block of eight depth rows with its unit axis dropped. -/
def dropU (v : Vec Ideal S1x8x160x160 .f32) : FVec Ideal S8x160x160 .f32 :=
  shapeCast S8x160x160 v shapeCasts_S1x8x160x160_S8x160x160

theorem core_apply (p : FVec Ideal S160x20 .f32) (pt : FVec Ideal S20x160 .f32) (a b : FVec Ideal S8x160x160 .f32)
    (hP : ∀ (w : Fin 160) (x : Fin 20), p (ix2 w x) = if w.val / 8 = x.val then (1 : EReal) else 0)
    (hPT : ∀ (y : Fin 20) (h : Fin 160), pt (ix2 y h) = if h.val / 8 = y.val then (1 : EReal) else 0)
    (ra rb : Fin 8 → Fin 160 → Fin 160 → ℝ)
    (ha : ∀ d h w, a (ix3 d h w) = (ra d h w : EReal)) (hb : ∀ d h w, b (ix3 d h w) = (rb d h w : EReal))
    (y x : Fin 20) :
    core p pt a b (ix2 y x)
      = ((∑ d : Fin 8, ∑ dy : Fin 8, ∑ dx : Fin 8, |ra d (vox y dy) (vox x dx) - rb d (vox y dy) (vox x dx)| : ℝ) : EReal) := by
  unfold core
  rw [mm2_apply, ← pooled (fun d h w => |ra d h w - rb d h w|) y x, coe_sum]
  refine Finset.sum_congr rfl fun h _ => ?_
  rw [hPT, mm1_apply, EReal.coe_mul, coe_sum]
  congr 1
  · split_ifs <;> simp
  · refine Finset.sum_congr rfl fun w _ => ?_
    rw [hP, red_apply, EReal.coe_mul, coe_sum]
    congr 1
    · refine Finset.sum_congr rfl fun d _ => ?_
      show max (a (ix3 d h w) - b (ix3 d h w)) (-(a (ix3 d h w) - b (ix3 d h w))) = _
      rw [ha, hb, ← EReal.coe_sub, ← EReal.coe_neg, ← EReal.coe_strictMono.monotone.map_max, ← abs_eq_max_neg]
    · split_ifs <;> simp

theorem slab_cast_apply (v : FVec Ideal S20x20 .f32) (y x : Fin 20) :
    shapeCast S1x20x20 v shapeCasts_S20x20_S1x20x20 (ix3 0 y x) = v (ix2 y x) := by
  refine (shapeCast_addUnit_apply ![20, 20] v shapeCasts_S20x20_S1x20x20 (ix3 0 y x)).trans ?_
  refine congrArg v ?_
  funext a
  match a with
  | ⟨0, _⟩ => rfl
  | ⟨1, _⟩ => rfl

/-- The slab at depth offset K read at (0, y, x): the sum over the 8 × 8 × 8 cell. -/
theorem slab_apply (x0 x1 : Vec Ideal S1x40x160x160 .f32) (x2 : Vec Ideal S160x20 .f32) (x3 : Vec Ideal S20x160 .f32)
    (hP : ∀ (w : Fin 160) (x : Fin 20), x2 (ix2 w x) = if w.val / 8 = x.val then (1 : EReal) else 0)
    (hPT : ∀ (y : Fin 20) (h : Fin 160), x3 (ix2 y h) = if h.val / 8 = y.val then (1 : EReal) else 0)
    (hf0 : ∀ j, x0 j ≠ ⊤ ∧ x0 j ≠ ⊥) (hf1 : ∀ j, x1 j ≠ ⊤ ∧ x1 j ≠ ⊥)
    (K : ℕ) (inb : ∀ a, (![0, K, 0, 0] : Fin 4 → ℕ) a + S1x8x160x160.size a ≤ S1x40x160x160.size a) (hK : K + 8 ≤ 40)
    (y x : Fin 20) :
    slab x2 x3 (dropU (View.ld x0 (Rect.unit (s := S1x40x160x160) ![0, K, 0, 0] S1x8x160x160.size inb)))
        (dropU (View.ld x1 (Rect.unit (s := S1x40x160x160) ![0, K, 0, 0] S1x8x160x160.size inb))) (ix3 0 y x)
      = ((∑ d : Fin 8, ∑ dy : Fin 8, ∑ dx : Fin 8,
          |(x0 (ix4 0 (⟨K + d.val, by omega⟩ : Fin 40) (vox y dy) (vox x dx))).toReal
            - (x1 (ix4 0 (⟨K + d.val, by omega⟩ : Fin 40) (vox y dy) (vox x dx))).toReal| : ℝ) : EReal) := by
  unfold slab
  rw [slab_cast_apply]
  exact core_apply x2 x3 _ _ hP hPT
    (fun d h w => (x0 (ix4 0 (⟨K + d.val, by omega⟩ : Fin 40) h w)).toReal)
    (fun d h w => (x1 (ix4 0 (⟨K + d.val, by omega⟩ : Fin 40) h w)).toReal)
    (fun d h w => by unfold dropU; rw [cast_ld_apply x0 K inb hK, EReal.coe_toReal (hf0 _).1 (hf0 _).2])
    (fun d h w => by unfold dropU; rw [cast_ld_apply x1 K inb hK, EReal.coe_toReal (hf1 _).1 (hf1 _).2])
    y x

/-! ### The payloads in those terms -/

theorem pay1_apply (v : FVec Ideal S5x20x20 .f32) (lb : Fin 5) (y x : Fin 20) :
    k0_pay1 (F := Ideal) v (ix4 0 lb y x) = v (ix3 lb y x) := by
  unfold k0_pay1
  refine (shapeCast_addUnit_apply ![5, 20, 20] v shapeCasts_S5x20x20_S1x5x20x20 (ix4 0 lb y x)).trans ?_
  refine congrArg v ?_
  funext a
  match a with
  | ⟨0, _⟩ => rfl
  | ⟨1, _⟩ => rfl
  | ⟨2, _⟩ => rfl

theorem pay2_ld (x2 : Vec Ideal S160x20 .f32) : k0_pay2 (F := Ideal) (View.ld x2 Cert.KernelIdeal.HF.rP) = x2 := by
  unfold k0_pay2
  rw [shapeCast_self]
  exact View.ld_unit_zero (funext fun a => by match a with | ⟨0, _⟩ => rfl | ⟨1, _⟩ => rfl) _ x2

theorem pay3_ld (x3 : Vec Ideal S20x160 .f32) : k0_pay3 (F := Ideal) (View.ld x3 Cert.KernelIdeal.HF.rPT) = x3 := by
  unfold k0_pay3
  rw [shapeCast_self]
  exact View.ld_unit_zero (funext fun a => by match a with | ⟨0, _⟩ => rfl | ⟨1, _⟩ => rfl) _ x3

theorem pay4_eq (v0 : Vec Ideal S160x20 .f32) (v2 : Vec Ideal S20x160 .f32) (v4 v6 : Vec Ideal S1x8x160x160 .f32) :
    k0_pay4 (F := Ideal) v0 v2 v4 v6 = slab (k0_pay2 v0) (k0_pay3 v2) (dropU v4) (dropU v6) := rfl

theorem pay5_eq (v0 : Vec Ideal S160x20 .f32) (v2 : Vec Ideal S20x160 .f32) (v14 v16 : Vec Ideal S1x8x160x160 .f32) :
    k0_pay5 (F := Ideal) v0 v2 v14 v16 = slab (k0_pay2 v0) (k0_pay3 v2) (dropU v14) (dropU v16) := rfl

theorem pay6_eq (v24 : Vec Ideal S1x8x160x160 .f32) : k0_pay6 (F := Ideal) v24 = dropU v24 := rfl

theorem pay7_eq (v1 : FVec Ideal S160x20 .f32) (v3 : FVec Ideal S20x160 .f32) (v13 v23 : FVec Ideal S1x20x20 .f32)
    (v25 : FVec Ideal S8x160x160 .f32) (v26 v34 v36 v44 v46 : Vec Ideal S1x8x160x160 .f32) :
    k0_pay7 (F := Ideal) v1 v3 v13 v23 v25 v26 v34 v36 v44 v46
      = concatenate S5x20x20 0 [⟨S1x20x20, v13⟩, ⟨S1x20x20, v23⟩, ⟨S1x20x20, slab v1 v3 v25 (dropU v26)⟩,
          ⟨S1x20x20, slab v1 v3 (dropU v34) (dropU v36)⟩, ⟨S1x20x20, slab v1 v3 (dropU v44) (dropU v46)⟩]
          concatenates_S1x20x20_S1x20x20_S1x20x20_S1x20x20_S1x20x20_S5x20x20_d0 := rfl

/-- Five pieces of one row each, stacked on axis 0 and read at row k: piece k. -/
theorem cat_apply (xs : List ((s : Shape) × (s.Idx → EReal))) (h : Shape.Concatenates (xs.map (·.1)) S5x20x20 0)
    (k : ℕ) (hk5 : k < 5) (hk : k < xs.length) (v : FVec Ideal S1x20x20 .f32) (hxk : xs[k] = ⟨S1x20x20, v⟩)
    (hpre : (((xs.take k).map (·.1)).map fun s => if h : s.rank = S5x20x20.rank then s.size ((0 : Fin S5x20x20.rank).cast h.symm) else 0).sum = k)
    (y x : Fin 20) :
    concatenate S5x20x20 0 xs h (ix3 (⟨k, hk5⟩ : Fin 5) y x) = v (ix3 0 y x) :=
  concatenate_apply_piece (0 : Fin S5x20x20.rank) xs h (ix3 (⟨k, hk5⟩ : Fin 5) y x) k hk S1x20x20 v hxk rfl k hpre (ix3 0 y x)
    (fun b hb => match b with
      | ⟨0, _⟩ => absurd rfl hb
      | ⟨1, _⟩ => rfl
      | ⟨2, _⟩ => rfl)
    rfl

/-- The value the body stores, at entry (0, lb, y, x): the pooled sum over the 8 × 8 × 8 cell of slab `lb`. -/
theorem stored_apply (x0 x1 : Vec Ideal S1x40x160x160 .f32) (x2 : Vec Ideal S160x20 .f32) (x3 : Vec Ideal S20x160 .f32)
    (hP : ∀ (w : Fin 160) (x : Fin 20), x2 (ix2 w x) = if w.val / 8 = x.val then (1 : EReal) else 0)
    (hPT : ∀ (y : Fin 20) (h : Fin 160), x3 (ix2 y h) = if h.val / 8 = y.val then (1 : EReal) else 0)
    (hf0 : ∀ j, x0 j ≠ ⊤ ∧ x0 j ≠ ⊥) (hf1 : ∀ j, x1 j ≠ ⊤ ∧ x1 j ≠ ⊥)
    (lb : Fin 5) (y x : Fin 20) :
    Cert.KernelIdeal.HF.stored (F := Ideal) x0 x1 x2 x3 (ix4 0 lb y x)
      = ((∑ d : Fin 8, ∑ dy : Fin 8, ∑ dx : Fin 8,
          |(x0 (ix4 0 (⟨8 * lb.val + d.val, by omega⟩ : Fin 40) (vox y dy) (vox x dx))).toReal
            - (x1 (ix4 0 (⟨8 * lb.val + d.val, by omega⟩ : Fin 40) (vox y dy) (vox x dx))).toReal| : ℝ) : EReal) := by
  unfold Cert.KernelIdeal.HF.stored
  rw [pay1_apply, pay7_eq, pay4_eq, pay5_eq, pay6_eq, pay2_ld, pay3_ld]
  obtain ⟨k, hk⟩ := lb
  have h5 : k = 0 ∨ k = 1 ∨ k = 2 ∨ k = 3 ∨ k = 4 := by omega
  rcases h5 with rfl | rfl | rfl | rfl | rfl
  · refine (cat_apply _ _ 0 hk (by simp) _ rfl rfl y x).trans ?_
    exact slab_apply x0 x1 x2 x3 hP hPT hf0 hf1 0 _ (by decide) y x
  · refine (cat_apply _ _ 1 hk (by simp) _ rfl rfl y x).trans ?_
    exact slab_apply x0 x1 x2 x3 hP hPT hf0 hf1 8 _ (by decide) y x
  · refine (cat_apply _ _ 2 hk (by simp) _ rfl rfl y x).trans ?_
    exact slab_apply x0 x1 x2 x3 hP hPT hf0 hf1 16 _ (by decide) y x
  · refine (cat_apply _ _ 3 hk (by simp) _ rfl rfl y x).trans ?_
    exact slab_apply x0 x1 x2 x3 hP hPT hf0 hf1 24 _ (by decide) y x
  · refine (cat_apply _ _ 4 hk (by simp) _ rfl rfl y x).trans ?_
    exact slab_apply x0 x1 x2 x3 hP hPT hf0 hf1 32 _ (by decide) y x

end Cert.KernelIdeal.KV

end
-- ==== Proof.KHost.lean ====
/-
  What the host lines before the region leave in the four arrays the region stages.

  * The first two lines re-lay either volume, 8 × 1 × 160 × 160 × 160, as 8 × 160 × 160 × 160: entry (b, d, h, w) of the
    result and entry (b, 0, d, h, w) of the argument sit at the same row-major position.
  * The pooling matrix, 160 × 20, compares the floored quotient of the position w by 8 with the block number x and
    converts the bit to a float: P[w, x] = 1 when w / 8 = x, else 0.  The floored quotient is computed the way jnp
    spells it (quotient toward zero, less one where the signs differ and the remainder is not zero); every step is
    elementwise over the 160 positions, so it is a function of one word, evaluated at each of the 160 positions.
  * The fourth array is that matrix transposed.
-/
import proofs.«403694_j34256659152993_3_alg».proof.Proof.FrameI
import proofs.«403694_j34256659152993_3_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KH

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (c : Dev nD)

/-! ## The two volumes re-laid -/

/-- What the lines leave in the first staged array: the second argument reshaped. -/
theorem v0_eq : (Cert.KernelIdeal.HF.V m c main_v0 : S8x160x160x160.Idx → EReal)
    = shapeCast S8x160x160x160 (m ((c : Thread nD τ).loc main_arg1)) shapeCasts_S8x1x160x160x160_S8x160x160x160 := by
  dsimp only [Cert.KernelIdeal.HF.V, Cert.KernelIdeal.HF.V0, Cert.KernelIdeal.HF.preOps]
  simp only [hostOps0, hostOps0_1, hostOps0_2, List.flatten_cons, List.flatten_nil, List.append_nil, List.cons_append, List.nil_append]
  after_results_simp
  rfl

/-- What they leave in the second: the first argument reshaped. -/
theorem v1_eq : (Cert.KernelIdeal.HF.V m c main_v1 : S8x160x160x160.Idx → EReal)
    = shapeCast S8x160x160x160 (m ((c : Thread nD τ).loc main_arg0)) shapeCasts_S8x1x160x160x160_S8x160x160x160 := by
  dsimp only [Cert.KernelIdeal.HF.V, Cert.KernelIdeal.HF.V0, Cert.KernelIdeal.HF.preOps]
  simp only [hostOps0, hostOps0_1, hostOps0_2, List.flatten_cons, List.flatten_nil, List.append_nil, List.cons_append, List.nil_append]
  after_results_simp
  rfl

/-- Entry (b, d, h, w) of the 8 × 160 × 160 × 160 array and entry (b, 0, d, h, w) of the 8 × 1 × 160 × 160 × 160 one sit at the
    same row-major position. -/
theorem reshape_apply (X : S8x1x160x160x160.Idx → EReal) (b : Fin 8) (d h w : Fin 160) :
    shapeCast S8x160x160x160 X shapeCasts_S8x1x160x160x160_S8x160x160x160 (ix4 b d h w) = X (ix5 b 0 d h w) := by
  refine shapeCast_apply X _ (ix4 b d h w) (ix5 b 0 d h w) ?_
  rw [Shape.rowMajor_val_five, Shape.rowMajor_val_four]
  show ((((b.val * 1 + 0) * 160 + d.val) * 160 + h.val) * 160 + w.val) = ((b.val * 160 + d.val) * 160 + h.val) * 160 + w.val
  omega

/-- The first staged array is the original volume (the second argument) with its unit axis dropped. -/
theorem V_main_v0_apply (b : Fin 8) (d h w : Fin 160) :
    Cert.KernelIdeal.HF.V m c main_v0 (ix4 b d h w) = m ((c : Thread nD τ).loc main_arg1) (ix5 b 0 d h w) :=
  (congrFun (v0_eq m c) (ix4 b d h w)).trans (reshape_apply _ b d h w)

/-- The second staged array is the masked volume (the first argument) with its unit axis dropped. -/
theorem V_main_v1_apply (b : Fin 8) (d h w : Fin 160) :
    Cert.KernelIdeal.HF.V m c main_v1 (ix4 b d h w) = m ((c : Thread nD τ).loc main_arg0) (ix5 b 0 d h w) :=
  (congrFun (v1_eq m c) (ix4 b d h w)).trans (reshape_apply _ b d h w)

/-! ## The pooling matrix -/

/-- The floored quotient of the positions 0 … 159 by 8, as the host lines compute it: the quotient rounded toward
    zero, less one where the signs of dividend and divisor differ and the remainder is not zero. -/
def fdiv : IVec S160 32 :=
  select
    (andi (cmpi .ne (signi (iotaInDim S160 32 0)) (broadcastInDim S160 ![] bcast_S_S160 (signi (constantI S_ 32 8#32))))
      (cmpi .ne (Host.remsi (iotaInDim S160 32 0) (broadcastInDim S160 ![] bcast_S_S160 (constantI S_ 32 8#32)))
        (broadcastInDim S160 ![] bcast_S_S160 (constantI S_ 32 0#32))))
    (subi (Host.divsi (iotaInDim S160 32 0) (broadcastInDim S160 ![] bcast_S_S160 (constantI S_ 32 8#32)))
      (broadcastInDim S160 ![] bcast_S_S160 (constantI S_ 32 1#32)))
    (Host.divsi (iotaInDim S160 32 0) (broadcastInDim S160 ![] bcast_S_S160 (constantI S_ 32 8#32)))

/-- The matrix the lines build: entry (w, x) compares the floored quotient at w with x, as a float. -/
def pool : FVec Ideal S160x20 .f32 :=
  uitofp (F := Ideal) .f32
    (cmpi .eq (broadcastInDim S160x20 ![0, 1] bcast_S160x1_S160x20_0_1 (broadcastInDim S160x1 ![0] bcast_S160_S160x1_0 fdiv))
      (broadcastInDim S160x20 ![0, 1] bcast_S1x20_S160x20_0_1 (broadcastInDim S1x20 ![1] bcast_S20_S1x20_1 (iotaInDim S20 32 0))))

theorem v10_eq : (Cert.KernelIdeal.HF.V m c main_v10 : S160x20.Idx → EReal) = pool := by
  dsimp only [Cert.KernelIdeal.HF.V, Cert.KernelIdeal.HF.V0, Cert.KernelIdeal.HF.preOps]
  simp only [hostOps0, hostOps0_1, hostOps0_2, List.flatten_cons, List.flatten_nil, List.append_nil, List.cons_append, List.nil_append]
  after_results_simp
  rfl

theorem v11_eq : (Cert.KernelIdeal.HF.V m c main_v11 : S20x160.Idx → EReal)
    = transpose S20x160 [1, 0] pool transposes_S160x20_S20x160_1_0 := by
  dsimp only [Cert.KernelIdeal.HF.V, Cert.KernelIdeal.HF.V0, Cert.KernelIdeal.HF.preOps]
  simp only [hostOps0, hostOps0_1, hostOps0_2, List.flatten_cons, List.flatten_nil, List.append_nil, List.cons_append, List.nil_append]
  after_results_simp
  rfl

/-- The sign of a word: 0, −1 or 1. -/
def sgn (x : BitVec 32) : BitVec 32 := if x = 0 then 0 else if x.msb then -1 else 1

/-- The floored quotient by 8 of one word, operation by operation. -/
def fdw (i : BitVec 32) : BitVec 32 :=
  Scalar.select (IntOp.andi (IntOp.cmpi .ne (sgn i) (sgn 8#32)) (IntOp.cmpi .ne (IntOp.remsi .host i 8#32) 0#32))
    (IntOp.subi (IntOp.divsi .host i 8#32) 1#32) (IntOp.divsi .host i 8#32)

/-- Every operation of the chain is elementwise and the divisor a broadcast constant. -/
theorem fdiv_apply (w : Fin 160) : fdiv (ix1 w) = fdw (BitVec.ofNat 32 w.val) := rfl

/-- On the positions 0 … 159 (non-negative, so the correction never applies) it is the natural quotient. -/
theorem fdw_eq : ∀ w : Fin 160, fdw (BitVec.ofNat 32 w.val) = BitVec.ofNat 32 (w.val / 8) := by decide +kernel

/-- Entry (w, x) of the matrix is one when position w lies in block x, else zero. -/
theorem pool_apply (w : Fin 160) (x : Fin 20) : pool (ix2 w x) = if w.val / 8 = x.val then (1 : EReal) else 0 := by
  have hA : broadcastInDim S160x20 ![0, 1] bcast_S160x1_S160x20_0_1 (broadcastInDim S160x1 ![0] bcast_S160_S160x1_0 fdiv) (ix2 w x)
      = BitVec.ofNat 32 (w.val / 8) := by
    rw [broadcastInDim_apply _ _ _ (ix2 w x) (ix2 w (0 : Fin 1)) (fun a => match a with
        | ⟨0, _⟩ => (if_neg (by decide : ¬ (160 : ℕ) = 1)).symm
        | ⟨1, _⟩ => (if_pos rfl).symm),
      broadcastInDim_apply _ _ _ (ix2 w (0 : Fin 1)) (ix1 w) (fun a => match a with
        | ⟨0, _⟩ => (if_neg (by decide : ¬ (160 : ℕ) = 1)).symm),
      fdiv_apply, fdw_eq]
  have hB : broadcastInDim S160x20 ![0, 1] bcast_S1x20_S160x20_0_1 (broadcastInDim S1x20 ![1] bcast_S20_S1x20_1 (iotaInDim S20 32 0)) (ix2 w x)
      = BitVec.ofNat 32 x.val := by
    rw [broadcastInDim_apply _ _ _ (ix2 w x) (ix2 (0 : Fin 1) x) (fun a => match a with
        | ⟨0, _⟩ => (if_pos rfl).symm
        | ⟨1, _⟩ => (if_neg (by decide : ¬ (20 : ℕ) = 1)).symm),
      broadcastInDim_apply _ _ _ (ix2 (0 : Fin 1) x) (ix1 x) (fun a => match a with
        | ⟨0, _⟩ => (if_neg (by decide : ¬ (20 : ℕ) = 1)).symm)]
    rfl
  show (((IntOp.cmpi .eq
      (broadcastInDim S160x20 ![0, 1] bcast_S160x1_S160x20_0_1 (broadcastInDim S160x1 ![0] bcast_S160_S160x1_0 fdiv) (ix2 w x))
      (broadcastInDim S160x20 ![0, 1] bcast_S1x20_S160x20_0_1 (broadcastInDim S1x20 ![1] bcast_S20_S1x20_1 (iotaInDim S20 32 0)) (ix2 w x))).toNat : ℝ) : EReal) = _
  rw [hA, hB]
  have hw := w.isLt
  have hx := x.isLt
  by_cases hwx : w.val / 8 = x.val
  · rw [if_pos hwx, hwx]
    simp [IntOp.cmpi]
  · rw [if_neg hwx]
    have hne : BitVec.ofNat 32 (w.val / 8) ≠ BitVec.ofNat 32 x.val := fun e => hwx (by
      have e' := congrArg BitVec.toNat e
      simp only [BitVec.toNat_ofNat] at e'
      omega)
    simp [IntOp.cmpi, hne]

/-- The pooling matrix: entry (w, x) is one when position w lies in block x, else zero. -/
theorem V_main_v10_apply (w : Fin 160) (x : Fin 20) :
    Cert.KernelIdeal.HF.V m c main_v10 (ix2 w x) = if w.val / 8 = x.val then (1 : EReal) else 0 :=
  (congrFun (v10_eq m c) (ix2 w x)).trans (pool_apply w x)

/-- Its transpose. -/
theorem V_main_v11_apply (y : Fin 20) (h : Fin 160) :
    Cert.KernelIdeal.HF.V m c main_v11 (ix2 y h) = if h.val / 8 = y.val then (1 : EReal) else 0 :=
  (congrFun (v11_eq m c) (ix2 y h)).trans ((transpose_ix2_apply pool transposes_S160x20_S20x160_1_0 y h).trans (pool_apply h y))

end Cert.KernelIdeal.KH

end
-- ==== Proof.KBlocks.lean ====
import proofs.«403694_j34256659152993_3_alg».proof.Proof.FrameI
import proofs.«403694_j34256659152993_3_alg».proof.Proof.Spec
import proofs.«403694_j34256659152993_3_alg».proof.Proof.KStored
import proofs.«403694_j34256659152993_3_alg».proof.Proof.KHost
import Idealize.ShloMosaic.Lib.ValueIdx
import Idealize.ShloMosaic.Lib.Pipeline.Value

noncomputable section

namespace Cert.KernelIdeal.KB

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (c : Dev nD)

/-- The zero offsets of the body's one store, as a constant function. -/
theorem zeroOff : (![0, 0, 0, 0] : Fin 4 → Nat) = fun _ => 0 := funext fun a => by fin_cases a <;> rfl

/-- The array of block sums: entry (b, z, y, x) is the sum of |original − masked| over block (z, y, x) of sample b. -/
abbrev sums : S8x20x20x20.Idx → EReal := fun i =>
  ((Cert.Spec.blockSumR (m ((c : Thread nD τ).loc main_arg1)) (m ((c : Thread nD τ).loc main_arg0))
      ⟨(i 0).val, (i 0).isLt⟩ ⟨(i 1).val, (i 1).isLt⟩ ⟨(i 2).val, (i 2).isLt⟩ ⟨(i 3).val, (i 3).isLt⟩ : ℝ) : EReal)

/-- At an index given by its coordinates. -/
theorem sums_apply (b : Fin 8) (z y x : Fin 20) :
    sums m c (ix4 b z y x)
      = ((Cert.Spec.blockSumR (m ((c : Thread nD τ).loc main_arg1)) (m ((c : Thread nD τ).loc main_arg0)) b z y x : ℝ) : EReal) := rfl

/-- The printed index maps over the grid: the volumes' blocks move with the output's on the sample and depth axes
    and stay at 0 on the others; the pooling matrices are whole; the output's block index is (sample, depth tile, 0, 0). -/
theorem index_facts : ∀ t : Fin cfg0.N,
    win0_0.index t (0 : Fin 4) = win0_4.index t (0 : Fin 4) ∧ win0_0.index t (1 : Fin 4) = win0_4.index t (1 : Fin 4)
    ∧ win0_0.index t (2 : Fin 4) = 0 ∧ win0_0.index t (3 : Fin 4) = 0
    ∧ win0_1.index t (0 : Fin 4) = win0_4.index t (0 : Fin 4) ∧ win0_1.index t (1 : Fin 4) = win0_4.index t (1 : Fin 4)
    ∧ win0_1.index t (2 : Fin 4) = 0 ∧ win0_1.index t (3 : Fin 4) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 4) ≤ 7 ∧ win0_4.index t (1 : Fin 4) ≤ 3
    ∧ win0_4.index t (2 : Fin 4) = 0 ∧ win0_4.index t (3 : Fin 4) = 0 :=
  (by decide +kernel : ∀ t : Fin grid0.N, _)

/-- Every (sample, depth tile) is some grid point's output block. -/
theorem index_onto : ∀ (q0 : Fin 8) (q1 : Fin 4), ∃ t : Fin cfg0.N, win0_4.index t = ![q0.val, q1.val, 0, 0] :=
  (by decide +kernel : ∀ (q0 : Fin 8) (q1 : Fin 4), ∃ t : Fin grid0.N, win0_4.index t = ![q0.val, q1.val, 0, 0])

/-- An entry of the original volume's block at a grid point is the entry of the launched original volume at the
    block's sample and at depth (depth tile) · 40 + (depth inside the block). -/
theorem origBlock_apply (t : Fin cfg0.N) (e : Fin 40) (h w : Fin 160) (b : Fin 8) (d : Fin 160)
    (hb : b.val = win0_4.index t (0 : Fin 4)) (hd : d.val = win0_4.index t (1 : Fin 4) * 40 + e.val) :
    Cert.KernelIdeal.HF.iblk m c 0 t (ix4 0 e h w) = m ((c : Thread nD τ).loc main_arg1) (ix5 b 0 d h w) := by
  obtain ⟨e0, e1, e2, e3, -⟩ := index_facts t
  show Cert.KernelIdeal.HF.V m c main_v0 (((cfg0.win 0).blk t).view.emb (ix4 0 e h w)) = _
  have he : ((cfg0.win 0).blk t).view.emb (ix4 0 e h w) = ix4 b d h w := by
    funext a; apply Fin.ext
    match a with
    | ⟨0, _⟩ => show win0_0.index t (0 : Fin 4) * 1 + 1 * 0 = b.val; omega
    | ⟨1, _⟩ => show win0_0.index t (1 : Fin 4) * 40 + 1 * e.val = d.val; omega
    | ⟨2, _⟩ => show win0_0.index t (2 : Fin 4) * 160 + 1 * h.val = h.val; omega
    | ⟨3, _⟩ => show win0_0.index t (3 : Fin 4) * 160 + 1 * w.val = w.val; omega
  rw [he]
  exact Cert.KernelIdeal.KH.V_main_v0_apply m c b d h w

/-- The same for the masked volume's block. -/
theorem maskBlock_apply (t : Fin cfg0.N) (e : Fin 40) (h w : Fin 160) (b : Fin 8) (d : Fin 160)
    (hb : b.val = win0_4.index t (0 : Fin 4)) (hd : d.val = win0_4.index t (1 : Fin 4) * 40 + e.val) :
    Cert.KernelIdeal.HF.iblk m c 1 t (ix4 0 e h w) = m ((c : Thread nD τ).loc main_arg0) (ix5 b 0 d h w) := by
  obtain ⟨-, -, -, -, e0, e1, e2, e3, -⟩ := index_facts t
  show Cert.KernelIdeal.HF.V m c main_v1 (((cfg0.win 1).blk t).view.emb (ix4 0 e h w)) = _
  have he : ((cfg0.win 1).blk t).view.emb (ix4 0 e h w) = ix4 b d h w := by
    funext a; apply Fin.ext
    match a with
    | ⟨0, _⟩ => show win0_1.index t (0 : Fin 4) * 1 + 1 * 0 = b.val; omega
    | ⟨1, _⟩ => show win0_1.index t (1 : Fin 4) * 40 + 1 * e.val = d.val; omega
    | ⟨2, _⟩ => show win0_1.index t (2 : Fin 4) * 160 + 1 * h.val = h.val; omega
    | ⟨3, _⟩ => show win0_1.index t (3 : Fin 4) * 160 + 1 * w.val = w.val; omega
  rw [he]
  exact Cert.KernelIdeal.KH.V_main_v1_apply m c b d h w

/-- The pooling matrix's block at every grid point is the whole matrix. -/
theorem poolBlock_apply (t : Fin cfg0.N) (w : Fin 160) (x : Fin 20) :
    Cert.KernelIdeal.HF.iblk m c 2 t (ix2 w x) = if w.val / 8 = x.val then (1 : EReal) else 0 := by
  obtain ⟨-, -, -, -, -, -, -, -, e0, e1, -⟩ := index_facts t
  show Cert.KernelIdeal.HF.V m c main_v10 (((cfg0.win 2).blk t).view.emb (ix2 w x)) = _
  have he : ((cfg0.win 2).blk t).view.emb (ix2 w x) = ix2 w x := by
    funext a; apply Fin.ext
    match a with
    | ⟨0, _⟩ => show win0_2.index t (0 : Fin 2) * 160 + 1 * w.val = w.val; omega
    | ⟨1, _⟩ => show win0_2.index t (1 : Fin 2) * 20 + 1 * x.val = x.val; omega
  rw [he]
  exact Cert.KernelIdeal.KH.V_main_v10_apply m c w x

/-- And so is its transpose's. -/
theorem poolTBlock_apply (t : Fin cfg0.N) (y : Fin 20) (h : Fin 160) :
    Cert.KernelIdeal.HF.iblk m c 3 t (ix2 y h) = if h.val / 8 = y.val then (1 : EReal) else 0 := by
  obtain ⟨-, -, -, -, -, -, -, -, -, -, e0, e1, -⟩ := index_facts t
  show Cert.KernelIdeal.HF.V m c main_v11 (((cfg0.win 3).blk t).view.emb (ix2 y h)) = _
  have he : ((cfg0.win 3).blk t).view.emb (ix2 y h) = ix2 y h := by
    funext a; apply Fin.ext
    match a with
    | ⟨0, _⟩ => show win0_3.index t (0 : Fin 2) * 20 + 1 * y.val = y.val; omega
    | ⟨1, _⟩ => show win0_3.index t (1 : Fin 2) * 160 + 1 * h.val = h.val; omega
  rw [he]
  exact Cert.KernelIdeal.KH.V_main_v11_apply m c y h

/-- A block each of whose entries is an entry of a volume of finite entries has finite entries. -/
theorem block_finite (x : Vec Ideal S1x40x160x160 .f32) (v : SVol.Idx → EReal) (hv : Cert.Spec.Finite v)
    (hx : ∀ (e : Fin 40) (h w : Fin 160), ∃ (b : Fin 8) (d : Fin 160), x (ix4 0 e h w) = v (ix5 b 0 d h w))
    (j : S1x40x160x160.Idx) : x j ≠ ⊤ ∧ x j ≠ ⊥ := by
  obtain ⟨a, e, h, w, rfl⟩ : ∃ (a : Fin 1) (e : Fin 40) (h w : Fin 160), j = ix4 a e h w :=
    ⟨j 0, j 1, j 2, j 3, eq_ix4 j⟩
  obtain rfl : a = 0 := Subsingleton.elim _ _
  obtain ⟨b, d, hbd⟩ := hx e h w
  rw [hbd]
  exact hv _

/-- What a grid point writes back is its block of the array of block sums. -/
theorem flushed_sums (h0 : Cert.Spec.Finite (m ((c : Thread nD τ).loc main_arg0)))
    (h1 : Cert.Spec.Finite (m ((c : Thread nD τ).loc main_arg1))) (t : Fin cfg0.N) :
    (Cert.KernelIdeal.HF.dats m 0 c).flushed 4 t = ((cfg0.win 4).blk t).view.read (Elt Ideal) (sums m c) := by
  show (cfg0.win 4).cut (grid0.coords t) ((Cert.KernelIdeal.HF.dats m 0 c).after 4 t) = _
  rw [Cert.KernelIdeal.HF.after0_4]
  unfold Cert.KernelIdeal.HF.out0_4
  rw [View.canon_unit_zero zeroOff]
  funext j
  obtain ⟨a, lb, y, x, rfl⟩ : ∃ (a : Fin 1) (lb : Fin 5) (y x : Fin 20), j = ix4 a lb y x :=
    ⟨j 0, j 1, j 2, j 3, eq_ix4 j⟩
  obtain rfl : a = 0 := Subsingleton.elim _ _
  obtain ⟨-, -, -, -, -, -, -, -, -, -, -, -, q0, q1, q2, q3⟩ := index_facts t
  show Cert.KernelIdeal.HF.stored (F := Ideal) (Cert.KernelIdeal.HF.iblk m c 0 t) (Cert.KernelIdeal.HF.iblk m c 1 t)
        (Cert.KernelIdeal.HF.iblk m c 2 t) (Cert.KernelIdeal.HF.iblk m c 3 t) (ix4 0 lb y x)
      = sums m c (((cfg0.win 4).blk t).view.emb (ix4 0 lb y x))
  have he : ((cfg0.win 4).blk t).view.emb (ix4 0 lb y x)
      = ix4 (⟨win0_4.index t (0 : Fin 4), by omega⟩ : Fin 8)
          (⟨win0_4.index t (1 : Fin 4) * 5 + lb.val, by omega⟩ : Fin 20) y x := by
    funext a; apply Fin.ext
    match a with
    | ⟨0, _⟩ => show win0_4.index t (0 : Fin 4) * 1 + 1 * 0 = win0_4.index t (0 : Fin 4); omega
    | ⟨1, _⟩ => show win0_4.index t (1 : Fin 4) * 5 + 1 * lb.val = win0_4.index t (1 : Fin 4) * 5 + lb.val; omega
    | ⟨2, _⟩ => show win0_4.index t (2 : Fin 4) * 20 + 1 * y.val = y.val; omega
    | ⟨3, _⟩ => show win0_4.index t (3 : Fin 4) * 20 + 1 * x.val = x.val; omega
  rw [he, sums_apply]
  refine (Cert.KernelIdeal.KV.stored_apply _ _ _ _ (poolBlock_apply m c t) (poolTBlock_apply m c t)
    (block_finite (Cert.KernelIdeal.HF.iblk m c 0 t) _ h1 fun e h w =>
      ⟨⟨win0_4.index t (0 : Fin 4), by omega⟩, ⟨win0_4.index t (1 : Fin 4) * 40 + e.val, by omega⟩,
        origBlock_apply m c t e h w _ _ rfl rfl⟩)
    (block_finite (Cert.KernelIdeal.HF.iblk m c 1 t) _ h0 fun e h w =>
      ⟨⟨win0_4.index t (0 : Fin 4), by omega⟩, ⟨win0_4.index t (1 : Fin 4) * 40 + e.val, by omega⟩,
        maskBlock_apply m c t e h w _ _ rfl rfl⟩) lb y x).trans ?_
  refine congrArg (fun r : ℝ => (r : EReal)) ?_
  unfold Cert.Spec.blockSumR Cert.Spec.absDiffR
  refine Finset.sum_congr rfl fun d _ => Finset.sum_congr rfl fun dy _ => Finset.sum_congr rfl fun dx _ => ?_
  have hd : (vox (⟨win0_4.index t (1 : Fin 4) * 5 + lb.val, by omega⟩ : Fin 20) d).val
      = win0_4.index t (1 : Fin 4) * 40 + (⟨8 * lb.val + d.val, by omega⟩ : Fin 40).val := by
    show 8 * (win0_4.index t (1 : Fin 4) * 5 + lb.val) + d.val = win0_4.index t (1 : Fin 4) * 40 + (8 * lb.val + d.val)
    omega
  rw [origBlock_apply m c t ⟨8 * lb.val + d.val, by omega⟩ (vox y dy) (vox x dx)
      ⟨win0_4.index t (0 : Fin 4), by omega⟩ (vox ⟨win0_4.index t (1 : Fin 4) * 5 + lb.val, by omega⟩ d) rfl hd,
    maskBlock_apply m c t ⟨8 * lb.val + d.val, by omega⟩ (vox y dy) (vox x dx)
      ⟨win0_4.index t (0 : Fin 4), by omega⟩ (vox ⟨win0_4.index t (1 : Fin 4) * 5 + lb.val, by omega⟩ d) rfl hd]

/-- An index of the output array lies in a grid point's block iff each coordinate lies in the block's range. -/
theorem mem_block (t : Fin cfg0.N) (i : S8x20x20x20.Idx) :
    i ∈ ((cfg0.win 4).blk t).view.set ↔ ∀ a : Fin 4, win0_4.index t a * S1x5x20x20.size a ≤ (i a).val
      ∧ (i a).val < win0_4.index t a * S1x5x20x20.size a + S1x5x20x20.size a := by
  show i ∈ ((View.whole main_v12).slice (win0_4.rect t)).set ↔ _
  rw [View.set_slice_whole, Rect.mem_set_unit]
  exact Iff.rfl

/-- Every index of the output array lies in the block of the point (sample, depth / 5), and that point writes back. -/
theorem covered (i : S8x20x20x20.Idx) :
    ∃ t : Fin cfg0.N, (cfg0.win 4).flush t = true ∧ i ∈ ((cfg0.win 4).blk t).view.set := by
  have hi0 : (i 0).val < 8 := (i 0).isLt
  have hi1 : (i 1).val < 20 := (i 1).isLt
  have hi2 : (i 2).val < 20 := (i 2).isLt
  have hi3 : (i 3).val < 20 := (i 3).isLt
  obtain ⟨t, ht⟩ := index_onto ⟨(i 0).val, hi0⟩ ⟨(i 1).val / 5, by omega⟩
  have q0 : win0_4.index t (0 : Fin 4) = (i 0).val := congrFun ht 0
  have q1 : win0_4.index t (1 : Fin 4) = (i 1).val / 5 := congrFun ht 1
  have q2 : win0_4.index t (2 : Fin 4) = 0 := congrFun ht 2
  have q3 : win0_4.index t (3 : Fin 4) = 0 := congrFun ht 3
  refine ⟨t, flush0_4 t, ?_⟩
  rw [mem_block]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 5 ≤ (i 1).val ∧ (i 1).val < win0_4.index t (1 : Fin 4) * 5 + 5; omega
  | ⟨2, _⟩ => show win0_4.index t (2 : Fin 4) * 20 ≤ (i 2).val ∧ (i 2).val < win0_4.index t (2 : Fin 4) * 20 + 20; omega
  | ⟨3, _⟩ => show win0_4.index t (3 : Fin 4) * 20 ≤ (i 3).val ∧ (i 3).val < win0_4.index t (3 : Fin 4) * 20 + 20; omega

/-- The array of block sums after the run: entry (b, z, y, x) is the sum of |original − masked| over the 8 × 8 × 8 block. -/
theorem final4 (h0 : Cert.Spec.Finite (m ((c : Thread nD τ).loc main_arg0))) (h1 : Cert.Spec.Finite (m ((c : Thread nD τ).loc main_arg1))) :
    (Cert.KernelIdeal.HF.dats m 0 c).arrAt 4 cfg0.N
      = fun i : S8x20x20x20.Idx => ((Cert.Spec.blockSumR (m ((c : Thread nD τ).loc main_arg1)) (m ((c : Thread nD τ).loc main_arg0))
          ⟨(i 0).val, (i 0).isLt⟩ ⟨(i 1).val, (i 1).isLt⟩ ⟨(i 2).val, (i 2).isLt⟩ ⟨(i 3).val, (i 3).isLt⟩ : ℝ) : EReal) :=
  (Cert.KernelIdeal.HF.dats m 0 c).arrAt_eq_of_cover 4 (sums m c) (fun t _ => flushed_sums m c h0 h1 t) covered

end Cert.KernelIdeal.KB

end
-- ==== Proof.KTail.lean ====
import proofs.«403694_j34256659152993_3_alg».proof.Proof.FrameI
import proofs.«403694_j34256659152993_3_alg».proof.Proof.Spec
import Idealize.ShloMosaic.Lib.ValueIdx
import Idealize.ShloMosaic.Lib.Pipeline.Value
import Idealize.ShloMosaic.Lib.StableHlo.Run
import Idealize.ShloMosaic.PureOps.Ideal.Laws
import Idealize.ShloMosaic.Lib.ValueIdxRank1
import Idealize.ShloMosaic.Lib.IdealHost
import Idealize.ShloMosaic.Lib.StableHlo.Predicate

noncomputable section

namespace Cert.KernelIdeal.KT

open Idealize.ShloMosaic Idealize.ShloMosaic.TcCoe Idealize.ShloMosaic.ValueIdx Idealize.SL.Sem
open Cert.KernelIdeal Cert.KernelIdeal.Gen Cert.Spec

variable (m : (ℓ : Loc nD τ sig) → Buf (Elt Ideal) ℓ) (c : Dev nD)

/-! ## Words -/

open Idealize.ShloMosaic.StableHlo.Predicate in
/-- Clipping to `[0, hi]` leaves a word whose value is at most `hi` unchanged. -/
theorem clip_id (x : BitVec 32) (hi : Nat) (hhi : hi < 2 ^ 31) (hx : x.toNat ≤ hi) :
    IntOp.minsi (BitVec.ofNat 32 hi) (IntOp.maxsi 0#32 x) = x := by
  have hx' : x.toInt = x.toNat := toInt_eq_toNat_of_lt (by omega)
  have hh : (BitVec.ofNat 32 hi).toInt = hi := toInt_ofNat_small hi hhi
  have h0 : (0#32 : BitVec 32).toInt = 0 := by decide
  have hm : IntOp.maxsi 0#32 x = x := by
    unfold IntOp.maxsi
    rw [if_neg (by simp only [BitVec.slt, hx', h0, decide_eq_true_eq]; omega)]
  rw [hm]
  unfold IntOp.minsi
  rw [if_neg (by simp only [BitVec.slt, hx', hh, decide_eq_true_eq]; omega)]

/-- The linear position of four small coordinates does not wrap around. -/
theorem lin_toNat (a b c d : BitVec 32) (ha : a.toNat < 8) (hb : b.toNat < 20) (hc : c.toNat < 20) (hd : d.toNat < 20) :
    (IntOp.addi (IntOp.muli (IntOp.addi (IntOp.muli (IntOp.addi (IntOp.muli a 20#32) b) 20#32) c) 20#32) d).toNat
      = ((a.toNat * 20 + b.toNat) * 20 + c.toNat) * 20 + d.toNat := by
  simp only [IntOp.addi, IntOp.muli, BitVec.toNat_add, BitVec.toNat_mul, BitVec.toNat_ofNat]
  omega

open Idealize.ShloMosaic.StableHlo.Predicate in
/-- A word below 2³¹ is not negative, so the index normalisation keeps it. -/
theorem norm_id (x : BitVec 32) (hx : x.toNat < 2 ^ 31) :
    Scalar.select (IntOp.cmpi .slt x 0#32) (IntOp.addi x 64000#32) x = x := by
  have hx' : x.toInt = x.toNat := toInt_eq_toNat_of_lt hx
  have h0 : (0#32 : BitVec 32).toInt = 0 := by decide
  have : IntOp.cmpi .slt x 0#32 = 0#1 := by
    simp only [IntOp.cmpi, BitVec.slt, hx', h0]
    rw [decide_eq_false (by omega)]; rfl
  rw [this, select_zero]

/-- The real sum of finitely many reals, as an extended real, is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The divisor `16384000.0`. -/
theorem ofBits_16384000 : Ideal.ofBits .f32 0x4B7A0000#32 = ((16384000 : ℝ) : EReal) := by
  simp [Ideal.ofBits, Ideal.ieee, -EReal.coe_mul]

/-! ## The lines after the region as one function of the block sums and the table -/

/-- A word at every row. -/
def bI (w : BitVec 32) : IVec S32000 32 := broadcastInDim S32000 ![] bcast_S_S32000 (constantI S_ 32 w)

/-- One column of the table as a vector over the rows. -/
def colv (idx : IVec S32000x5 32) (off : Fin 2 → Nat) (h : S32000x5.Slices off S32000x1) : IVec S32000 32 :=
  shapeCast S32000 (extractStridedSlice S32000x1 off idx h) shapeCasts_S32000x1_S32000

/-- A vector clipped to `[0, hi]`. -/
def clipv (x : IVec S32000 32) (hi : BitVec 32) : IVec S32000 32 :=
  minsi (bI hi) (maxsi (bI 0#32) x)

/-- The rows' linear positions in the array of block sums. -/
def linv (idx : IVec S32000x5 32) : IVec S32000 32 :=
  addi (muli (addi (muli (addi (muli (clipv (colv idx ![0, 0] slices_S32000x5_S32000x1_0_0) 7#32) (bI 20#32))
      (clipv (colv idx ![0, 2] slices_S32000x5_S32000x1_0_2) 19#32)) (bI 20#32))
      (clipv (colv idx ![0, 3] slices_S32000x5_S32000x1_0_3) 19#32)) (bI 20#32))
      (clipv (colv idx ![0, 4] slices_S32000x5_S32000x1_0_4) 19#32)

/-- A negative position counted from the end. -/
def normv (l : IVec S32000 32) : IVec S32000 32 :=
  select (cmpi .slt l (bI 0#32)) (addi l (bI 64000#32)) l

/-- The block sums the rows select. -/
def pickv (B : FVec Ideal S8x20x20x20 .f32) (idx : IVec S32000x5 32) : FVec Ideal S32000 .f32 :=
  Host.gather gather_S64000_S32000x1_S32000_n_0_n_n_0_1_1 (shapeCast S64000 B shapeCasts_S8x20x20x20_S64000)
    (broadcastInDim S32000x1 ![0] bcast_S32000_S32000x1_0 (normv (linv idx)))

/-- The result: the selected block sums, summed, over the literal divisor. -/
def tailFn (B : FVec Ideal S8x20x20x20 .f32) (idx : IVec S32000x5 32) : FVec Ideal S_ .f32 :=
  Host.divf (F := Ideal)
    (Host.reduceAdd (F := Ideal) (pickv B idx) (constant (F := Ideal) S_ .f32 0x00000000#32) reducesTo_S32000_S_d0 h_S_)
    (constant (F := Ideal) S_ .f32 0x4B7A0000#32)

/-! ## The function read row by row -/

theorem bI_apply (w : BitVec 32) (j : S32000.Idx) : bI w j = w := rfl

/-- Column `k` of the table at row `n`. -/
theorem colv_apply (idx : IVec S32000x5 32) (off : Fin 2 → Nat) (h : S32000x5.Slices off S32000x1) (n : Fin 32000) (k : Fin 5)
    (h0 : off 0 = 0) (h1 : off 1 = k.val) : colv idx off h (ix1 n) = idx (ix2 n k) := by
  unfold colv
  refine (shapeCast_apply _ shapeCasts_S32000x1_S32000 (ix1 n) (ix2 n (0 : Fin 1)) ?_).trans ?_
  · rw [Shape.rowMajor_val_two, Shape.rowMajor_val_one]
    show n.val * 1 + 0 = n.val
    omega
  · refine extractStridedSlice_apply off idx h (ix2 n (0 : Fin 1)) (ix2 n k) ?_
    intro a
    match a with
    | ⟨0, _⟩ => show n.val = off 0 + n.val; omega
    | ⟨1, _⟩ => show k.val = off 1 + 0; omega

theorem clipv_apply (x : IVec S32000 32) (hi : BitVec 32) (j : S32000.Idx) :
    clipv x hi j = IntOp.minsi hi (IntOp.maxsi 0#32 (x j)) := rfl

theorem normv_apply (l : IVec S32000 32) (j : S32000.Idx) :
    normv l j = Scalar.select (IntOp.cmpi .slt (l j) 0#32) (IntOp.addi (l j) 64000#32) (l j) := rfl

/-- In range, the position of row `n` is the row-major position of its four coordinates, as a word that has not wrapped. -/
theorem normv_linv_toNat (idx : IVec S32000x5 32) (h2 : InRange idx) (n : Fin 32000) :
    (normv (linv idx) (ix1 n)).toNat = ((col idx n 0 * 20 + col idx n 2) * 20 + col idx n 3) * 20 + col idx n 4 := by
  obtain ⟨r0, r2, r3, r4⟩ := h2 n
  unfold col at r0 r2 r3 r4 ⊢
  have c0 := colv_apply idx ![0, 0] slices_S32000x5_S32000x1_0_0 n 0 rfl rfl
  have c2 := colv_apply idx ![0, 2] slices_S32000x5_S32000x1_0_2 n 2 rfl rfl
  have c3 := colv_apply idx ![0, 3] slices_S32000x5_S32000x1_0_3 n 3 rfl rfl
  have c4 := colv_apply idx ![0, 4] slices_S32000x5_S32000x1_0_4 n 4 rfl rfl
  have e : linv idx (ix1 n) = IntOp.addi (IntOp.muli (IntOp.addi (IntOp.muli (IntOp.addi (IntOp.muli (idx (ix2 n 0)) 20#32)
      (idx (ix2 n 2))) 20#32) (idx (ix2 n 3))) 20#32) (idx (ix2 n 4)) := by
    show IntOp.addi (IntOp.muli (IntOp.addi (IntOp.muli (IntOp.addi (IntOp.muli
        (IntOp.minsi 7#32 (IntOp.maxsi 0#32 (colv idx ![0, 0] slices_S32000x5_S32000x1_0_0 (ix1 n)))) 20#32)
        (IntOp.minsi 19#32 (IntOp.maxsi 0#32 (colv idx ![0, 2] slices_S32000x5_S32000x1_0_2 (ix1 n))))) 20#32)
        (IntOp.minsi 19#32 (IntOp.maxsi 0#32 (colv idx ![0, 3] slices_S32000x5_S32000x1_0_3 (ix1 n))))) 20#32)
        (IntOp.minsi 19#32 (IntOp.maxsi 0#32 (colv idx ![0, 4] slices_S32000x5_S32000x1_0_4 (ix1 n)))) = _
    rw [c0, c2, c3, c4, clip_id _ 7 (by norm_num) (by omega), clip_id _ 19 (by norm_num) (by omega),
      clip_id _ 19 (by norm_num) (by omega), clip_id _ 19 (by norm_num) (by omega)]
  have hl := lin_toNat (idx (ix2 n 0)) (idx (ix2 n 2)) (idx (ix2 n 3)) (idx (ix2 n 4)) r0 r2 r3 r4
  rw [normv_apply, e, norm_id _ (by rw [hl]; omega), hl]

theorem ofFin_eq_ix1 {n : Nat} (p : Fin n) : Shape.Idx.ofFin p = ix1 p := by
  funext a; match a with | ⟨0, _⟩ => exact Fin.ext rfl

theorem ixP_eq_ix2 {n : Nat} (p : Fin n) : StableHlo.Predicate.ixP p = ix2 p (0 : Fin 1) := by
  funext a; match a with | ⟨0, _⟩ => rfl | ⟨1, _⟩ => rfl

/-- The flattened array of block sums at a row-major position is the array at the four coordinates. -/
theorem flat_apply (B : FVec Ideal S8x20x20x20 .f32) (a : Fin 8) (b c d : Fin 20) (j : Fin 64000)
    (hj : j.val = ((a.val * 20 + b.val) * 20 + c.val) * 20 + d.val) :
    shapeCast S64000 B shapeCasts_S8x20x20x20_S64000 (ix1 j) = B (ix4 a b c d) := by
  refine shapeCast_apply B shapeCasts_S8x20x20x20_S64000 (ix1 j) (ix4 a b c d) ?_
  rw [Shape.rowMajor_val_four, Shape.rowMajor_val_one]
  show ((a.val * 20 + b.val) * 20 + c.val) * 20 + d.val = j.val
  omega

/-- The take: row `n` reads the flat array at its position, read signed and clamped into the array. -/
theorem take_apply (x : FVec Ideal S64000 .f32) (I : IVec S32000 32) (n : Fin 32000) (j : Fin 64000)
    (hj : j.val = min (I (ix1 n)).toInt.toNat 63999) :
    Host.gather gather_S64000_S32000x1_S32000_n_0_n_n_0_1_1 x (broadcastInDim S32000x1 ![0] bcast_S32000_S32000x1_0 I) (ix1 n)
      = x (ix1 j) := by
  have hg := StableHlo.Predicate.gather_take gather_S64000_S32000x1_S32000_n_0_n_n_0_1_1 rfl rfl rfl rfl x
    (broadcastInDim S32000x1 ![0] bcast_S32000_S32000x1_0 I) n (by norm_num)
  rw [ofFin_eq_ix1 n] at hg
  rw [hg]
  refine congrArg x ?_
  rw [ofFin_eq_ix1]
  refine congrArg ix1 (Fin.ext ?_)
  show min (broadcastInDim S32000x1 ![0] bcast_S32000_S32000x1_0 I (StableHlo.Predicate.ixP n)).toInt.toNat (64000 - 1) = j.val
  rw [StableHlo.Predicate.bcast_col1, ofFin_eq_ix1, hj]

/-- In range, row `n` picks the block sum at its four coordinates. -/
theorem pickv_apply (B : FVec Ideal S8x20x20x20 .f32) (idx : IVec S32000x5 32) (h2 : InRange idx) (n : Fin 32000) :
    pickv B idx (ix1 n) = B (ix4 (⟨col idx n 0 % 8, Nat.mod_lt _ (by decide)⟩ : Fin 8) (⟨col idx n 2 % 20, Nat.mod_lt _ (by decide)⟩ : Fin 20)
      (⟨col idx n 3 % 20, Nat.mod_lt _ (by decide)⟩ : Fin 20) (⟨col idx n 4 % 20, Nat.mod_lt _ (by decide)⟩ : Fin 20)) := by
  obtain ⟨r0, r2, r3, r4⟩ := h2 n
  have hL := normv_linv_toNat idx h2 n
  have hI : (normv (linv idx) (ix1 n)).toInt = ((normv (linv idx) (ix1 n)).toNat : ℤ) :=
    StableHlo.Predicate.toInt_eq_toNat_of_lt (by rw [hL]; omega)
  have hlt : ((col idx n 0 * 20 + col idx n 2) * 20 + col idx n 3) * 20 + col idx n 4 < 64000 := by omega
  unfold pickv
  refine (take_apply _ (normv (linv idx)) n ⟨_, hlt⟩ ?_).trans ?_
  · show ((col idx n 0 * 20 + col idx n 2) * 20 + col idx n 3) * 20 + col idx n 4 = min (normv (linv idx) (ix1 n)).toInt.toNat 63999
    rw [hI, Int.toNat_natCast, hL]
    omega
  · refine flat_apply B _ _ _ _ _ ?_
    show ((col idx n 0 * 20 + col idx n 2) * 20 + col idx n 3) * 20 + col idx n 4 = ((col idx n 0 % 8 * 20 + col idx n 2 % 20) * 20 + col idx n 3 % 20) * 20 + col idx n 4 % 20
    rw [Nat.mod_eq_of_lt r0, Nat.mod_eq_of_lt r2, Nat.mod_eq_of_lt r3, Nat.mod_eq_of_lt r4]

/-- The value of the lines after the region, at an array of real block sums and a table in range. -/
theorem tailFn_value (g : Fin 8 → Fin 20 → Fin 20 → Fin 20 → ℝ) (idx : IVec S32000x5 32) (h2 : InRange idx) :
    tailFn (fun i : S8x20x20x20.Idx => ((g ⟨(i 0).val, (i 0).isLt⟩ ⟨(i 1).val, (i 1).isLt⟩ ⟨(i 2).val, (i 2).isLt⟩ ⟨(i 3).val, (i 3).isLt⟩ : ℝ) : EReal)) idx
      = fun _ => (((∑ n : Fin 32000, g ⟨col idx n 0 % 8, Nat.mod_lt _ (by decide)⟩ ⟨col idx n 2 % 20, Nat.mod_lt _ (by decide)⟩
          ⟨col idx n 3 % 20, Nat.mod_lt _ (by decide)⟩ ⟨col idx n 4 % 20, Nat.mod_lt _ (by decide)⟩) / 16384000 : ℝ) : EReal) := by
  funext j
  unfold tailFn
  rw [hostDivf_apply, hostReduceAdd_apply, Ideal.hostReduceAdd_total _ (fun b => b.elim0), constant_apply, constant_apply,
    Ideal.ofBits_zero_f32, ofBits_16384000, zero_add, Ideal.div_coe (by norm_num)]
  rw [← Equiv.sum_comp (idxEquiv1 (n := 32000)).symm]
  have hrow : ∀ n : Fin 32000, pickv (fun i : S8x20x20x20.Idx => ((g ⟨(i 0).val, (i 0).isLt⟩ ⟨(i 1).val, (i 1).isLt⟩ ⟨(i 2).val, (i 2).isLt⟩ ⟨(i 3).val, (i 3).isLt⟩ : ℝ) : EReal)) idx
      ((idxEquiv1 (n := 32000)).symm n) = ((g ⟨col idx n 0 % 8, Nat.mod_lt _ (by decide)⟩ ⟨col idx n 2 % 20, Nat.mod_lt _ (by decide)⟩
          ⟨col idx n 3 % 20, Nat.mod_lt _ (by decide)⟩ ⟨col idx n 4 % 20, Nat.mod_lt _ (by decide)⟩ : ℝ) : EReal) := fun n =>
    pickv_apply _ idx h2 n
  rw [Finset.sum_congr rfl (fun n _ => hrow n), ← coe_sum, ← EReal.coe_mul, mul_one_div]

/-! ## The lines after the region are that function -/

/-- The result buffer after the lines that follow the region: the function above at the region's output array and the
    launched table (no line before it writes the table, and no window stages it). -/
theorem tail_eq_tailFn :
    Pipeline.afterTail₀ cfgs (Cert.KernelIdeal.HF.dats m) 0 (Cert.KernelIdeal.HF.V0 m) Cert.KernelIdeal.HF.tailOps c main_v43
      = tailFn ((Cert.KernelIdeal.HF.dats m 0 c).arrAt 4 cfg0.N) (m ((c : Thread nD τ).loc main_arg2)) := by
  unfold Pipeline.afterTail₀
  simp only [Cert.KernelIdeal.HF.tailOps, hostOps1, hostOps1_1, hostOps1_2, hostOps1_3, hostOps1_4, hostOps1_5, hostOps1_6, hostOps1_7, hostOps1_8,
    List.flatten_cons, List.flatten_nil, List.append_nil, List.cons_append, List.nil_append]
  open StableHlo in after_results_simp
  have e1 : Pipeline.withArrays (cfgs 0).spec c (Cert.KernelIdeal.HF.V0 m c) (fun w => (Cert.KernelIdeal.HF.dats m 0 c).arrAt w (cfgs 0).N)
      (Proc.devRef .tc main_v12) = (Cert.KernelIdeal.HF.dats m 0 c).arrAt 4 cfg0.N :=
    Pipeline.withArrays_arr spec0 launch0.win.arr_inj c _ _ 4
  have e2 : Pipeline.withArrays (cfgs 0).spec c (Cert.KernelIdeal.HF.V0 m c) (fun w => (Cert.KernelIdeal.HF.dats m 0 c).arrAt w (cfgs 0).N)
      (Proc.devRef .tc main_arg2) = m ((c : Thread nD τ).loc main_arg2) :=
    (Pipeline.withArrays_of_ne _ c (Cert.KernelIdeal.HF.V0 m c) _ main_arg2 (by decide : ∀ w, Pipeline.arrRef spec0 w ≠ main_arg2)).trans
      (Cert.KernelIdeal.HF.V_main_arg2 m c)
  rw [e1, e2]
  rfl

/-- The program's result from the array of block sums `g` and a table in range: the rows' block sums, summed, over 16384000. -/
theorem tail_value (g : Fin 8 → Fin 20 → Fin 20 → Fin 20 → ℝ)
    (hB : (Cert.KernelIdeal.HF.dats m 0 c).arrAt 4 cfg0.N
      = fun i : S8x20x20x20.Idx => ((g ⟨(i 0).val, (i 0).isLt⟩ ⟨(i 1).val, (i 1).isLt⟩ ⟨(i 2).val, (i 2).isLt⟩ ⟨(i 3).val, (i 3).isLt⟩ : ℝ) : EReal))
    (h2 : Cert.Spec.InRange (m ((c : Thread nD τ).loc main_arg2))) :
    Pipeline.afterTail₀ cfgs (Cert.KernelIdeal.HF.dats m) 0 (Cert.KernelIdeal.HF.V0 m) Cert.KernelIdeal.HF.tailOps c main_v43
      = fun _ => (((∑ n : Fin 32000, g ⟨col (m ((c : Thread nD τ).loc main_arg2)) n 0 % 8, Nat.mod_lt _ (by decide)⟩
          ⟨col (m ((c : Thread nD τ).loc main_arg2)) n 2 % 20, Nat.mod_lt _ (by decide)⟩
          ⟨col (m ((c : Thread nD τ).loc main_arg2)) n 3 % 20, Nat.mod_lt _ (by decide)⟩
          ⟨col (m ((c : Thread nD τ).loc main_arg2)) n 4 % 20, Nat.mod_lt _ (by decide)⟩) / 16384000 : ℝ) : EReal) := by
  rw [tail_eq_tailFn m c, hB]
  exact tailFn_value g _ h2

end Cert.KernelIdeal.KT

end
-- ==== Proof.KerValue.lean ====
/-
  The idealized kernel program's run, read as a value: its result is the specification's real number, and its
  arguments end as launched.

  The frame run leaves the array of block sums at the fold of what the grid points wrote back; that array is the
  block sums of |original − masked| (finite entries), and the host lines after the region gather one block sum per
  row of the table (coordinates in range), add them up and divide by 32000 · 512.
-/
import proofs.«403694_j34256659152993_3_alg».proof.Proof.FrameI
import proofs.«403694_j34256659152993_3_alg».proof.Proof.Spec
import proofs.«403694_j34256659152993_3_alg».proof.Proof.KBlocks
import proofs.«403694_j34256659152993_3_alg».proof.Proof.KTail

noncomputable section

namespace Cert.KernelIdeal.KR

open Idealize.ShloMosaic Idealize.ShloMosaic.TcCoe Idealize.SL.Sem
open Cert.KernelIdeal Cert.KernelIdeal.Gen Cert.Spec

variable (m : (ℓ : Loc nD τ sig) → Buf (Elt Ideal) ℓ) (ρ : Dev nD → PrngReg)

/-- The result buffer after the host lines that follow the region: the mean over rows and block entries. -/
theorem ker_value (c : Dev nD) (h0 : Cert.Spec.Finite (m ((c : Thread nD τ).loc main_arg0))) (h1 : Cert.Spec.Finite (m ((c : Thread nD τ).loc main_arg1)))
    (h2 : Cert.Spec.InRange (m ((c : Thread nD τ).loc main_arg2))) :
    Pipeline.afterTail₀ cfgs (Cert.KernelIdeal.HF.dats m) 0 (Cert.KernelIdeal.HF.V0 m) Cert.KernelIdeal.HF.tailOps c main_v43
      = fun _ => ((Cert.Spec.resultR (m ((c : Thread nD τ).loc main_arg1)) (m ((c : Thread nD τ).loc main_arg0)) (m ((c : Thread nD τ).loc main_arg2)) : ℝ) : EReal) :=
  Cert.KernelIdeal.KT.tail_value m c
    (fun b z y x => Cert.Spec.blockSumR (m ((c : Thread nD τ).loc main_arg1)) (m ((c : Thread nD τ).loc main_arg0)) b z y x)
    (Cert.KernelIdeal.KB.final4 m c h0 h1) h2

/-- The run with its result named: on every core the result buffer ends at the host tail's value and the three
    arguments end as launched (no window stages them and no host line writes them). -/
theorem run_value : θ_run defs (onTc (τ := τ) (main (F := Ideal))) ⟨m, fun _ => 0, ρ⟩ (fun r => ∀ c : Dev nD,
      r.2.mem ((c.tc : Thread nD τ).loc main_v43)
        = Pipeline.afterTail₀ cfgs (Cert.KernelIdeal.HF.dats m) 0 (Cert.KernelIdeal.HF.V0 m) Cert.KernelIdeal.HF.tailOps c main_v43
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v43 (Pipeline.mem_restRefs_of main_v43 (by decide) (by decide)),
     ((h c).2 main_arg0 (Pipeline.mem_restRefs_of main_arg0 (by decide) (by decide))).trans (Cert.KernelIdeal.HF.W_main_arg0 m (Cert.KernelIdeal.HF.dats m) c),
     ((h c).2 main_arg1 (Pipeline.mem_restRefs_of main_arg1 (by decide) (by decide))).trans (Cert.KernelIdeal.HF.W_main_arg1 m (Cert.KernelIdeal.HF.dats m) c),
     ((h c).2 main_arg2 (Pipeline.mem_restRefs_of main_arg2 (by decide) (by decide))).trans (Cert.KernelIdeal.HF.W_main_arg2 m (Cert.KernelIdeal.HF.dats m) c)⟩)
    (Cert.KernelIdeal.HF.run_main (F := Ideal) m ρ)

end Cert.KernelIdeal.KR

end
-- ==== Proof.RefGather.lean ====
/-
  The reference's gathered blocks, read at an index.

  The reference reshapes a volume 8 × 1 × 160 × 160 × 160 to 8 × 1 × 20 × 8 × 20 × 8 × 20 × 8, transposes it to
  8 × 20 × 20 × 20 × 1 × 8 × 8 × 8 and gathers, for each row n of the index table, the 1 × 8 × 8 × 8 block at the
  row's entries 0, 2, 3, 4, each first replaced by itself plus the axis length when it is negative.  When those
  entries are in range the replacement and the gather's clamp change nothing, and element (n, 0, dz, dy, dx) of
  the gathered array is the volume at sample s, voxel (8·bz + dz, 8·by + dy, 8·bx + dx).
-/
import proofs.«403694_j34256659152993_3_alg».proof.Proof.Gen.ReferenceIdeal.Run
import proofs.«403694_j34256659152993_3_alg».proof.Proof.Gen.ReferenceIdeal.Read
import proofs.«403694_j34256659152993_3_alg».proof.Proof.Spec
import Idealize.ShloMosaic.Lib.ValueIdx
import Idealize.ShloMosaic.Lib.Pipeline.Value
import Idealize.ShloMosaic.PureOps.Ideal.Laws

noncomputable section

namespace Cert.RefGather

open Cert.ReferenceIdeal Cert.ReferenceIdeal.Gen Cert.ReferenceIdeal.Read Idealize.ShloMosaic Idealize.ShloMosaic.ValueIdx Cert.Spec

variable {F : FTy → Type} [FloatOps F]

/-! ## Rank-8 indices -/

/-- A rank-8 index from its coordinates. -/
abbrev ix8 {n0 n1 n2 n3 n4 n5 n6 n7 : Nat} (a : Fin n0) (b : Fin n1) (c : Fin n2) (d : Fin n3) (e : Fin n4) (f : Fin n5)
    (g : Fin n6) (h : Fin n7) : (⟨8, ![n0, n1, n2, n3, n4, n5, n6, n7]⟩ : Shape).Idx :=
  fun k => match k with
    | ⟨0, _⟩ => a | ⟨1, _⟩ => b | ⟨2, _⟩ => c | ⟨3, _⟩ => d | ⟨4, _⟩ => e | ⟨5, _⟩ => f | ⟨6, _⟩ => g | ⟨7, _⟩ => h

/-- Rank 8: the row-major position as one sum of products. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5
          + (i 5).val) * d 6 + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-! ## The index table's columns, normalised -/

/-- A word below 2³¹ is not negative as a signed word. -/
theorem slt_zero_of_small (a : BitVec 32) (h : a.toNat < 2 ^ 31) : IntOp.cmpi .slt a 0#32 = 0#1 := by
  unfold IntOp.cmpi
  have h0 : a.slt 0#32 = false := by
    have ha : a.toInt = (a.toNat : Int) := BitVec.toInt_eq_toNat_of_lt (by omega)
    have hz : (0#32 : BitVec 32).toInt = 0 := by decide
    simp only [BitVec.slt, decide_eq_false_iff_not, not_lt, ha, hz]
    omega
  rw [h0]; rfl

/-- "Add the axis length if negative" leaves a word below 2³¹ as it is. -/
theorem normalise_small (a size : BitVec 32) (h : a.toNat < 2 ^ 31) :
    Scalar.select (IntOp.cmpi .slt a 0#32) (IntOp.addi a size) a = a := by
  rw [slt_zero_of_small a h]; exact select_zero _ _

/-- Such a word read as a signed integer is its unsigned value. -/
theorem toInt_toNat_small (a : BitVec 32) (h : a.toNat < 2 ^ 31) : a.toInt.toNat = a.toNat := by
  rw [BitVec.toInt_eq_toNat_of_lt (by omega)]; simp

/-- Column 0 of row `n`, normalised against the axis length 8. -/
theorem v14_at (x2 : (⟨S32000x5, .i32⟩ : BufTy).Contents (Elt F)) (n : Fin 32000)
    (h : (x2 (ix2 n (0 : Fin 5))).toNat < 2 ^ 31) : val_main_v14 (F := F) x2 (ix1 n) = x2 (ix2 n (0 : Fin 5)) := by
  have hi : idx_main_v2 (idx_main_v3 (ix1 n)) = ix2 n (0 : Fin 5) := by
    funext a; match a with
    | ⟨0, _⟩ => exact Fin.ext (Nat.div_one _)
    | ⟨1, _⟩ => rfl
  rw [val_main_v14_apply, val_main_v11_apply, val_main_v13_apply, val_main_v3_apply, val_main_v2_apply, val_main_v10_apply,
    val_main_c_apply, hi]
  exact normalise_small _ _ h

/-- Column 2 of row `n`, normalised against the axis length 20. -/
theorem v19_at (x2 : (⟨S32000x5, .i32⟩ : BufTy).Contents (Elt F)) (n : Fin 32000)
    (h : (x2 (ix2 n (2 : Fin 5))).toNat < 2 ^ 31) : val_main_v19 (F := F) x2 (ix1 n) = x2 (ix2 n (2 : Fin 5)) := by
  have hi : idx_main_v4 (idx_main_v5 (ix1 n)) = ix2 n (2 : Fin 5) := by
    funext a; match a with
    | ⟨0, _⟩ => exact Fin.ext (Nat.div_one _)
    | ⟨1, _⟩ => rfl
  rw [val_main_v19_apply, val_main_v16_apply, val_main_v18_apply, val_main_v5_apply, val_main_v4_apply, val_main_v15_apply,
    val_main_c_1_apply, hi]
  exact normalise_small _ _ h

/-- Column 3 of row `n`, normalised against the axis length 20. -/
theorem v24_at (x2 : (⟨S32000x5, .i32⟩ : BufTy).Contents (Elt F)) (n : Fin 32000)
    (h : (x2 (ix2 n (3 : Fin 5))).toNat < 2 ^ 31) : val_main_v24 (F := F) x2 (ix1 n) = x2 (ix2 n (3 : Fin 5)) := by
  have hi : idx_main_v6 (idx_main_v7 (ix1 n)) = ix2 n (3 : Fin 5) := by
    funext a; match a with
    | ⟨0, _⟩ => exact Fin.ext (Nat.div_one _)
    | ⟨1, _⟩ => rfl
  rw [val_main_v24_apply, val_main_v21_apply, val_main_v23_apply, val_main_v7_apply, val_main_v6_apply, val_main_v20_apply,
    val_main_c_3_apply, hi]
  exact normalise_small _ _ h

/-- Column 4 of row `n`, normalised against the axis length 20. -/
theorem v29_at (x2 : (⟨S32000x5, .i32⟩ : BufTy).Contents (Elt F)) (n : Fin 32000)
    (h : (x2 (ix2 n (4 : Fin 5))).toNat < 2 ^ 31) : val_main_v29 (F := F) x2 (ix1 n) = x2 (ix2 n (4 : Fin 5)) := by
  have hi : idx_main_v8 (idx_main_v9 (ix1 n)) = ix2 n (4 : Fin 5) := by
    funext a; match a with
    | ⟨0, _⟩ => exact Fin.ext (Nat.div_one _)
    | ⟨1, _⟩ => rfl
  rw [val_main_v29_apply, val_main_v26_apply, val_main_v28_apply, val_main_v9_apply, val_main_v8_apply, val_main_v25_apply,
    val_main_c_5_apply, hi]
  exact normalise_small _ _ h

/-- The rank-1 index under a row of a one-column array. -/
theorem bcast_row (n : Fin 32000) : idx_main_v30 (ix2 n (0 : Fin 1)) = ix1 n := by
  funext a; match a with | ⟨0, _⟩ => rfl

/-- The four normalised columns side by side: entry (n, 0). -/
theorem v34_at0 (x2 : (⟨S32000x5, .i32⟩ : BufTy).Contents (Elt F)) (n : Fin 32000)
    (h : (x2 (ix2 n (0 : Fin 5))).toNat < 2 ^ 31) : val_main_v34 (F := F) x2 (ix2 n (0 : Fin 4)) = x2 (ix2 n (0 : Fin 5)) := by
  unfold val_main_v34
  refine (concatenate_apply_piece (1 : Fin S32000x4.rank)
    ([⟨S32000x1, val_main_v30 (F := F) x2⟩, ⟨S32000x1, val_main_v31 (F := F) x2⟩, ⟨S32000x1, val_main_v32 (F := F) x2⟩,
      ⟨S32000x1, val_main_v33 (F := F) x2⟩] : List ((s : Shape) × (s.Idx → BitVec 32)))
    concatenates_S32000x1_S32000x1_S32000x1_S32000x1_S32000x4_d1
    (ix2 n (0 : Fin 4)) 0 (by simp) S32000x1 (val_main_v30 (F := F) x2) rfl rfl 0 rfl (ix2 n (0 : Fin 1)) ?_ rfl).trans ?_
  · intro b hb; match b, hb with
    | ⟨0, _⟩, _ => rfl
    | ⟨1, _⟩, hb => exact absurd rfl hb
  · rw [val_main_v30_apply, bcast_row, v14_at x2 n h]

/-- Entry (n, 1): column 2 of the table. -/
theorem v34_at1 (x2 : (⟨S32000x5, .i32⟩ : BufTy).Contents (Elt F)) (n : Fin 32000)
    (h : (x2 (ix2 n (2 : Fin 5))).toNat < 2 ^ 31) : val_main_v34 (F := F) x2 (ix2 n (1 : Fin 4)) = x2 (ix2 n (2 : Fin 5)) := by
  unfold val_main_v34
  refine (concatenate_apply_piece (1 : Fin S32000x4.rank)
    ([⟨S32000x1, val_main_v30 (F := F) x2⟩, ⟨S32000x1, val_main_v31 (F := F) x2⟩, ⟨S32000x1, val_main_v32 (F := F) x2⟩,
      ⟨S32000x1, val_main_v33 (F := F) x2⟩] : List ((s : Shape) × (s.Idx → BitVec 32)))
    concatenates_S32000x1_S32000x1_S32000x1_S32000x1_S32000x4_d1
    (ix2 n (1 : Fin 4)) 1 (by simp) S32000x1 (val_main_v31 (F := F) x2) rfl rfl 1 rfl (ix2 n (0 : Fin 1)) ?_ rfl).trans ?_
  · intro b hb; match b, hb with
    | ⟨0, _⟩, _ => rfl
    | ⟨1, _⟩, hb => exact absurd rfl hb
  · rw [val_main_v31_apply]; exact v19_at x2 n h

/-- Entry (n, 2): column 3 of the table. -/
theorem v34_at2 (x2 : (⟨S32000x5, .i32⟩ : BufTy).Contents (Elt F)) (n : Fin 32000)
    (h : (x2 (ix2 n (3 : Fin 5))).toNat < 2 ^ 31) : val_main_v34 (F := F) x2 (ix2 n (2 : Fin 4)) = x2 (ix2 n (3 : Fin 5)) := by
  unfold val_main_v34
  refine (concatenate_apply_piece (1 : Fin S32000x4.rank)
    ([⟨S32000x1, val_main_v30 (F := F) x2⟩, ⟨S32000x1, val_main_v31 (F := F) x2⟩, ⟨S32000x1, val_main_v32 (F := F) x2⟩,
      ⟨S32000x1, val_main_v33 (F := F) x2⟩] : List ((s : Shape) × (s.Idx → BitVec 32)))
    concatenates_S32000x1_S32000x1_S32000x1_S32000x1_S32000x4_d1
    (ix2 n (2 : Fin 4)) 2 (by simp) S32000x1 (val_main_v32 (F := F) x2) rfl rfl 2 rfl (ix2 n (0 : Fin 1)) ?_ rfl).trans ?_
  · intro b hb; match b, hb with
    | ⟨0, _⟩, _ => rfl
    | ⟨1, _⟩, hb => exact absurd rfl hb
  · rw [val_main_v32_apply]; exact v24_at x2 n h

/-- Entry (n, 3): column 4 of the table. -/
theorem v34_at3 (x2 : (⟨S32000x5, .i32⟩ : BufTy).Contents (Elt F)) (n : Fin 32000)
    (h : (x2 (ix2 n (4 : Fin 5))).toNat < 2 ^ 31) : val_main_v34 (F := F) x2 (ix2 n (3 : Fin 4)) = x2 (ix2 n (4 : Fin 5)) := by
  unfold val_main_v34
  refine (concatenate_apply_piece (1 : Fin S32000x4.rank)
    ([⟨S32000x1, val_main_v30 (F := F) x2⟩, ⟨S32000x1, val_main_v31 (F := F) x2⟩, ⟨S32000x1, val_main_v32 (F := F) x2⟩,
      ⟨S32000x1, val_main_v33 (F := F) x2⟩] : List ((s : Shape) × (s.Idx → BitVec 32)))
    concatenates_S32000x1_S32000x1_S32000x1_S32000x1_S32000x4_d1
    (ix2 n (3 : Fin 4)) 3 (by simp) S32000x1 (val_main_v33 (F := F) x2) rfl rfl 3 rfl (ix2 n (0 : Fin 1)) ?_ rfl).trans ?_
  · intro b hb; match b, hb with
    | ⟨0, _⟩, _ => rfl
    | ⟨1, _⟩, hb => exact absurd rfl hb
  · rw [val_main_v33_apply]; exact v29_at x2 n h

/-- The second gather's start indices are the first's: the same operations on the same table. -/
theorem v70_eq_v34 (x2 : (⟨S32000x5, .i32⟩ : BufTy).Contents (Elt F)) : val_main_v70 (F := F) x2 = val_main_v34 (F := F) x2 := rfl

/-! ## The gather, read at an index -/

/-- The gather's dimension numbers: four collapsed start axes, the block axes kept. -/
abbrev gd := gather_S8x20x20x20x1x8x8x8_S32000x4_S32000x1x8x8x8_1234_0123_n_n_0123_1_11111888

/-- The start-indices index at which result index `(n, c, dz, dy, dx)` reads component `k` of its start index. -/
theorem siIdx_at (n : Fin 32000) (c : Fin 1) (dz dy dx : Fin 8) (k : Fin 4) (hk : k.val < gd.startIndexMap.length) :
    gd.siIdx (ix5 n c dz dy dx) ⟨k.val, hk⟩ = ix2 n k := by
  funext b; refine Fin.ext ?_
  match b with
  | ⟨0, _⟩ => rfl
  | ⟨1, _⟩ => rfl

/-- On a collapsed axis `a` (one of the first four) the operand coordinate is the start index's component, clamped. -/
theorem operand_start {w : Nat} (idx : IVec S32000x4 w) (n : Fin 32000) (c : Fin 1) (dz dy dx : Fin 8)
    (a : Fin 8) (k : Fin 4) (ha : a ∈ gd.startIndexMap) (hc : a ∈ gd.collapsedSliceDims)
    (hk : List.idxOf a gd.startIndexMap = k.val) :
    (gd.operandIdx (ix5 n c dz dy dx) idx a).val
      = min (idx (ix2 n k)).toInt.toNat (S8x20x20x20x1x8x8x8.size a - gd.sliceSizes a) := by
  show gd.start (ix5 n c dz dy dx) idx a + gd.batchCoord (ix5 n c dz dy dx) a + gd.offCoord (ix5 n c dz dy dx) a = _
  rw [GatherDims.batchCoord_eq_zero _ _ _ List.not_mem_nil,
    GatherDims.offCoord_eq_zero _ _ _ (fun h => ((GatherDims.mem_sKept _ _).mp h).1 hc), Nat.add_zero]
  unfold GatherDims.start
  rw [dif_pos ha]
  have hsi : gd.siIdx (ix5 n c dz dy dx) ⟨List.idxOf a gd.startIndexMap, List.idxOf_lt_length_iff.2 ha⟩ = ix2 n k := by
    rw [← siIdx_at n c dz dy dx k (by rw [← hk]; exact List.idxOf_lt_length_iff.2 ha)]
    congr 1; exact Fin.ext hk
  rw [hsi]

/-- On a block axis `a` (one of the last four) the operand coordinate is the result's coordinate on the matching
    offset axis. -/
theorem operand_offset {w : Nat} (idx : IVec S32000x4 w) (j : S32000x1x8x8x8.Idx)
    (a : Fin 8) (ha : a ∉ gd.startIndexMap) (hs : a ∈ gd.sKept) :
    (gd.operandIdx j idx a).val
      = (j (gd.offsetDims[gd.sKept.idxOf a]'(by rw [gd.offset_length]; exact List.idxOf_lt_length_iff.2 hs))).val := by
  show gd.start j idx a + gd.batchCoord j a + gd.offCoord j a = _
  rw [GatherDims.batchCoord_eq_zero _ _ _ List.not_mem_nil, Nat.add_zero]
  unfold GatherDims.start GatherDims.offCoord
  rw [dif_neg ha, dif_pos hs, Nat.zero_add]

/-- THE GATHER READ AT `(n, c, dz, dy, dx)`, the four start components in range: the operand at the block they name,
    at the block coordinates. -/
theorem gather_at {α : Type} (x : S8x20x20x20x1x8x8x8.Idx → α) (idx : IVec S32000x4 32) (n : Fin 32000) (c : Fin 1)
    (dz dy dx : Fin 8) (b : Fin 8) (z y w : Fin 20)
    (h0 : (idx (ix2 n (0 : Fin 4))).toNat = b.val) (h1 : (idx (ix2 n (1 : Fin 4))).toNat = z.val)
    (h2 : (idx (ix2 n (2 : Fin 4))).toNat = y.val) (h3 : (idx (ix2 n (3 : Fin 4))).toNat = w.val) :
    Host.gather gd x idx (ix5 n c dz dy dx) = x (ix8 b z y w c dz dy dx) := by
  unfold Host.gather
  congr 1
  have e0 : (gd.operandIdx (ix5 n c dz dy dx) idx (0 : Fin 8)).val = b.val := by
    rw [operand_start idx n c dz dy dx 0 0 (by decide) (by decide) (by decide), toInt_toNat_small _ (by omega), h0]
    show min b.val (8 - 1) = b.val
    omega
  have e1 : (gd.operandIdx (ix5 n c dz dy dx) idx (1 : Fin 8)).val = z.val := by
    rw [operand_start idx n c dz dy dx 1 1 (by decide) (by decide) (by decide), toInt_toNat_small _ (by omega), h1]
    show min z.val (20 - 1) = z.val
    omega
  have e2 : (gd.operandIdx (ix5 n c dz dy dx) idx (2 : Fin 8)).val = y.val := by
    rw [operand_start idx n c dz dy dx 2 2 (by decide) (by decide) (by decide), toInt_toNat_small _ (by omega), h2]
    show min y.val (20 - 1) = y.val
    omega
  have e3 : (gd.operandIdx (ix5 n c dz dy dx) idx (3 : Fin 8)).val = w.val := by
    rw [operand_start idx n c dz dy dx 3 3 (by decide) (by decide) (by decide), toInt_toNat_small _ (by omega), h3]
    show min w.val (20 - 1) = w.val
    omega
  have e4 : (gd.operandIdx (ix5 n c dz dy dx) idx (4 : Fin 8)).val = c.val :=
    operand_offset idx _ 4 (by decide) (by decide)
  have e5 : (gd.operandIdx (ix5 n c dz dy dx) idx (5 : Fin 8)).val = dz.val :=
    operand_offset idx _ 5 (by decide) (by decide)
  have e6 : (gd.operandIdx (ix5 n c dz dy dx) idx (6 : Fin 8)).val = dy.val :=
    operand_offset idx _ 6 (by decide) (by decide)
  have e7 : (gd.operandIdx (ix5 n c dz dy dx) idx (7 : Fin 8)).val = dx.val :=
    operand_offset idx _ 7 (by decide) (by decide)
  funext a
  match a with
  | ⟨0, _⟩ => exact Fin.ext e0
  | ⟨1, _⟩ => exact Fin.ext e1
  | ⟨2, _⟩ => exact Fin.ext e2
  | ⟨3, _⟩ => exact Fin.ext e3
  | ⟨4, _⟩ => exact Fin.ext e4
  | ⟨5, _⟩ => exact Fin.ext e5
  | ⟨6, _⟩ => exact Fin.ext e6
  | ⟨7, _⟩ => exact Fin.ext e7

/-! ## The reshaped and transposed volume, read at an index -/

/-- The volume cut into 8-blocks along its three long axes: block `(z, y, w)`, offset `(dz, dy, dx)` is voxel
    `(8z + dz, 8y + dy, 8w + dx)` — the two indices have the same row-major position. -/
theorem blocks_at {α : Type} (x : S8x1x160x160x160.Idx → α) (b : Fin 8) (c : Fin 1) (z y w : Fin 20) (dz dy dx : Fin 8) :
    shapeCast S8x1x20x8x20x8x20x8 x shapeCasts_S8x1x160x160x160_S8x1x20x8x20x8x20x8 (ix8 b c z dz y dy w dx)
      = x (ix5 b (0 : Fin 1) (vox z dz) (vox y dy) (vox w dx)) := by
  refine shapeCast_apply x _ _ _ ?_
  rw [Shape.rowMajor_val_five, rowMajor_val_eight]
  have hc : c.val = 0 := by omega
  show (((b.val * 1 + 0) * 160 + (8 * z.val + dz.val)) * 160 + (8 * y.val + dy.val)) * 160 + (8 * w.val + dx.val)
    = ((((((b.val * 1 + c.val) * 20 + z.val) * 8 + dz.val) * 20 + y.val) * 8 + dy.val) * 20 + w.val) * 8 + dx.val
  omega

/-- The transpose's source index: the block coordinates and the offsets interleaved. -/
theorem transpose_src (b : Fin 8) (z y w : Fin 20) (c : Fin 1) (dz dy dx : Fin 8) :
    idx_main_v1 (ix8 b z y w c dz dy dx) = ix8 b c z dz y dy w dx := by
  funext a
  match a with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- The original volume's blocks (operation 1) at block `(b, z, y, w)`, offset `(c, dz, dy, dx)`. -/
theorem v1_at (x1 : (⟨S8x1x160x160x160, .f32⟩ : BufTy).Contents (Elt F)) (b : Fin 8) (z y w : Fin 20) (c : Fin 1)
    (dz dy dx : Fin 8) :
    val_main_v1 (F := F) x1 (ix8 b z y w c dz dy dx) = x1 (ix5 b (0 : Fin 1) (vox z dz) (vox y dy) (vox w dx)) := by
  rw [val_main_v1_apply, transpose_src]
  unfold val_main_v0
  exact blocks_at x1 b c z y w dz dy dx

/-- The masked volume's blocks (operation 37) likewise. -/
theorem v37_at (x0 : (⟨S8x1x160x160x160, .f32⟩ : BufTy).Contents (Elt F)) (b : Fin 8) (z y w : Fin 20) (c : Fin 1)
    (dz dy dx : Fin 8) :
    val_main_v37 (F := F) x0 (ix8 b z y w c dz dy dx) = x0 (ix5 b (0 : Fin 1) (vox z dz) (vox y dy) (vox w dx)) := by
  rw [val_main_v37_apply]
  show val_main_v36 (F := F) x0 (idx_main_v1 (ix8 b z y w c dz dy dx)) = _
  rw [transpose_src]
  unfold val_main_v36
  exact blocks_at x0 b c z y w dz dy dx

/-! ## The two gathered arrays under the range hypothesis -/

/-- The sample row `n` names. -/
def rowS (x2 : STab.Idx → BitVec 32) (n : Fin 32000) : Fin 8 := ⟨col x2 n 0 % 8, Nat.mod_lt _ (by decide)⟩
/-- The block coordinate row `n` names in column `k`. -/
def rowC (x2 : STab.Idx → BitVec 32) (n : Fin 32000) (k : Fin 5) : Fin 20 := ⟨col x2 n k % 20, Nat.mod_lt _ (by decide)⟩

/-- The voxel of a volume that row `n`'s block holds at offset `(dz, dy, dx)`. -/
def voxel (x2 : STab.Idx → BitVec 32) (n : Fin 32000) (dz dy dx : Fin 8) : SVol.Idx :=
  ix5 (rowS x2 n) (0 : Fin 1) (vox (rowC x2 n 2) dz) (vox (rowC x2 n 3) dy) (vox (rowC x2 n 4) dx)

/-- The start indices of row `n`, in range, are the block coordinates. -/
theorem starts_at (x2 : (⟨S32000x5, .i32⟩ : BufTy).Contents (Elt F)) (h2 : InRange x2) (n : Fin 32000) :
    (val_main_v34 (F := F) x2 (ix2 n (0 : Fin 4))).toNat = (rowS x2 n).val
    ∧ (val_main_v34 (F := F) x2 (ix2 n (1 : Fin 4))).toNat = (rowC x2 n 2).val
    ∧ (val_main_v34 (F := F) x2 (ix2 n (2 : Fin 4))).toNat = (rowC x2 n 3).val
    ∧ (val_main_v34 (F := F) x2 (ix2 n (3 : Fin 4))).toNat = (rowC x2 n 4).val := by
  obtain ⟨c0, c2, c3, c4⟩ := h2 n
  unfold col at c0 c2 c3 c4
  refine ⟨?_, ?_, ?_, ?_⟩
  · rw [v34_at0 x2 n (by omega)]; exact (Nat.mod_eq_of_lt c0).symm
  · rw [v34_at1 x2 n (by omega)]; exact (Nat.mod_eq_of_lt c2).symm
  · rw [v34_at2 x2 n (by omega)]; exact (Nat.mod_eq_of_lt c3).symm
  · rw [v34_at3 x2 n (by omega)]; exact (Nat.mod_eq_of_lt c4).symm

/-- The block gathered from the original volume (operation 35). -/
theorem v35_at (x1 : (⟨S8x1x160x160x160, .f32⟩ : BufTy).Contents (Elt F)) (x2 : (⟨S32000x5, .i32⟩ : BufTy).Contents (Elt F))
    (h2 : InRange x2) (n : Fin 32000) (c : Fin 1) (dz dy dx : Fin 8) :
    val_main_v35 (F := F) x1 x2 (ix5 n c dz dy dx) = x1 (voxel x2 n dz dy dx) := by
  obtain ⟨s0, s1, s2, s3⟩ := starts_at (F := F) x2 h2 n
  unfold val_main_v35
  rw [gather_at (val_main_v1 (F := F) x1) (val_main_v34 (F := F) x2) n c dz dy dx _ _ _ _ s0 s1 s2 s3]
  exact v1_at x1 _ _ _ _ c dz dy dx

/-- The block gathered from the masked volume (operation 71). -/
theorem v71_at (x0 : (⟨S8x1x160x160x160, .f32⟩ : BufTy).Contents (Elt F)) (x2 : (⟨S32000x5, .i32⟩ : BufTy).Contents (Elt F))
    (h2 : InRange x2) (n : Fin 32000) (c : Fin 1) (dz dy dx : Fin 8) :
    val_main_v71 (F := F) x0 x2 (ix5 n c dz dy dx) = x0 (voxel x2 n dz dy dx) := by
  obtain ⟨s0, s1, s2, s3⟩ := starts_at (F := F) x2 h2 n
  unfold val_main_v71
  rw [v70_eq_v34, gather_at (val_main_v37 (F := F) x0) (val_main_v34 (F := F) x2) n c dz dy dx _ _ _ _ s0 s1 s2 s3]
  exact v37_at x0 _ _ _ _ c dz dy dx

end Cert.RefGather

end
-- ==== Proof.RefValue.lean ====
/-
  The reference program's result is the specification.

  With the two gathered arrays read at a voxel, the rest of the reference is arithmetic on extended reals whose
  operands are all real: the absolute difference, its sum over the 8 × 8 × 8 block, the quotient by 512, the sum over
  the 32000 rows and the quotient by 32000.  The mean over the rows of the blocks' means is the specification's value.
-/
import proofs.«403694_j34256659152993_3_alg».proof.Proof.Gen.ReferenceIdeal.Run
import proofs.«403694_j34256659152993_3_alg».proof.Proof.Gen.ReferenceIdeal.Read
import proofs.«403694_j34256659152993_3_alg».proof.Proof.Spec
import Idealize.ShloMosaic.Lib.ValueIdx
import Idealize.ShloMosaic.Lib.Pipeline.Value
import Idealize.ShloMosaic.PureOps.Ideal.Laws
import proofs.«403694_j34256659152993_3_alg».proof.Proof.RefGather

noncomputable section

namespace Cert.RefValue

open Cert.ReferenceIdeal Cert.ReferenceIdeal.Gen Cert.ReferenceIdeal.Read Idealize.ShloMosaic Idealize.ShloMosaic.ValueIdx
open Cert.Spec Cert.RefGather

/-! ## Sums over index sets by coordinates -/

/-- A rank-1 index set is its coordinate range. -/
def idxFin {n : Nat} : (⟨1, ![n]⟩ : Shape).Idx ≃ Fin n where
  toFun i := i 0
  invFun a := ix1 a
  left_inv i := (eq_ix1 i).symm
  right_inv _ := rfl

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxFin (n := n)).symm f]
  rfl

/-- A rank-5 index set is the product of its five coordinate ranges. -/
def idxProd5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- A sum over a rank-5 index set is the five-fold sum over the coordinates. -/
theorem sum_idx5 {M : Type*} [AddCommMonoid M] {n0 n1 n2 n3 n4 : Nat} (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxProd5 (n0 := n0) (n1 := n1) (n2 := n2) (n3 := n3) (n4 := n4)).symm f,
    Fintype.sum_prod_type]
  simp only [Fintype.sum_prod_type]
  rfl

/-- A finite sum of reals, each read as an extended real, is the sum read as an extended real. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## The sum over the four block axes -/

/-- Which row a rank-5 index of the gathered array reduces to. -/
theorem drop_eq_iff (n a : Fin 32000) (b : Fin 1) (c d e : Fin 8) :
    reducesTo_S32000x1x8x8x8_S32000_d1_2_3_4.drop (ix5 a b c d e) = ix1 n ↔ a = n := by
  have h0 : ((reducesTo_S32000x1x8x8x8_S32000_d1_2_3_4.drop (ix5 a b c d e) (0 : Fin 1) : Fin 32000) : Nat) = a.val :=
    Shape.ReducesTo.drop_apply_val_of_eq reducesTo_S32000x1x8x8x8_S32000_d1_2_3_4 (ix5 a b c d e) (0 : Fin 1) (0 : Fin 5)
  constructor
  · intro h
    have h1 := congrArg (fun i : S32000.Idx => (i (0 : Fin 1)).val) h
    exact Fin.ext (h0.symm.trans h1)
  · intro h
    funext k
    match k with
    | ⟨0, _⟩ => exact Fin.ext (h0.trans (congrArg Fin.val h))

/-- An index of the gathered array that reduces to row `n` is `(n, 0, dz, dy, dx)` for its own last three coordinates. -/
theorem eq_of_drop (n : Fin 32000) (i : S32000x1x8x8x8.Idx)
    (h : reducesTo_S32000x1x8x8x8_S32000_d1_2_3_4.drop i = ix1 n) : i = ix5 n (0 : Fin 1) (i 2) (i 3) (i 4) := by
  have h' := h
  rw [eq_ix5 i] at h'
  have h0 := (drop_eq_iff n _ _ _ _ _).1 h'
  funext k
  match k with
  | ⟨0, _⟩ => exact h0
  | ⟨1, _⟩ => exact Fin.ext (by have h1 : (i 1).val < 1 := (i 1).isLt; show (i 1).val = 0; omega)
  | ⟨2, _⟩ => rfl
  | ⟨3, _⟩ => rfl
  | ⟨4, _⟩ => rfl

/-- The host's sum over the axes 1, 2, 3, 4 at row `n`: the initial value plus the sum over the row's block. -/
theorem reduce_block (x : S32000x1x8x8x8.Idx → EReal) (init : EReal) (n : Fin 32000) :
    Ideal.hostReduceAdd reducesTo_S32000x1x8x8x8_S32000_d1_2_3_4 x init (ix1 n)
      = init + ∑ dz : Fin 8, ∑ dy : Fin 8, ∑ dx : Fin 8, x (ix5 n (0 : Fin 1) dz dy dx) := by
  unfold Ideal.hostReduceAdd
  refine congrArg (fun s => init + s) ?_
  have hp : ∑ dz : Fin 8, ∑ dy : Fin 8, ∑ dx : Fin 8, x (ix5 n (0 : Fin 1) dz dy dx)
      = ∑ p : Fin 8 × Fin 8 × Fin 8, x (ix5 n (0 : Fin 1) p.1 p.2.1 p.2.2) := by
    simp only [Fintype.sum_prod_type]
  rw [hp]
  refine Finset.sum_nbij' (fun i => (i 2, i 3, i 4)) (fun p => ix5 n (0 : Fin 1) p.1 p.2.1 p.2.2) ?_ ?_ ?_ ?_ ?_
  · intro i _; exact Finset.mem_univ _
  · intro p _; exact Finset.mem_filter.2 ⟨Finset.mem_univ _, (drop_eq_iff n n 0 _ _ _).2 rfl⟩
  · intro i hi; exact (eq_of_drop n i (Finset.mem_filter.1 hi).2).symm
  · intro p _; rfl
  · intro i hi; exact congrArg x (eq_of_drop n i (Finset.mem_filter.1 hi).2)

/-! ## The constants -/

/-- `512.0`, the block's number of entries. -/
theorem ofBits_512 : Ideal.ofBits .f32 0x44000000#32 = ((512 : ℝ) : EReal) := by
  simp [Ideal.ofBits, Ideal.ieee, -EReal.coe_mul]; norm_num

/-- `32000.0`, the number of rows. -/
theorem ofBits_32000 : Ideal.ofBits .f32 0x46FA0000#32 = ((32000 : ℝ) : EReal) := by
  simp [Ideal.ofBits, Ideal.ieee, -EReal.coe_mul]; norm_num

/-! ## Arithmetic on real operands -/

/-- The host's quotient of a real by a non-zero real. -/
theorem div_real (r y : ℝ) (hy : y ≠ 0) : Ideal.div (r : EReal) (y : EReal) = ((r / y : ℝ) : EReal) := by
  rw [Ideal.div_coe hy, ← EReal.coe_mul, mul_one_div]

/-- The larger of a difference of reals and its negation is the absolute difference. -/
theorem abs_sub_real (ra rb : ℝ) : max ((ra : EReal) - rb) (-((ra : EReal) - rb)) = ((|ra - rb| : ℝ) : EReal) := by
  rw [← EReal.coe_sub, ← EReal.coe_neg, abs_eq_max_neg]
  exact (EReal.coe_strictMono.monotone.map_max).symm

/-! ## The reference, operation by operation -/

section
variable (x0 x1 : (⟨S8x1x160x160x160, .f32⟩ : BufTy).Contents (Elt Ideal)) (x2 : (⟨S32000x5, .i32⟩ : BufTy).Contents (Elt Ideal))
variable (h0 : Cert.Spec.Finite x0) (h1 : Cert.Spec.Finite x1) (h2 : Cert.Spec.InRange x2)
include h0 h1 h2

/-- The absolute difference of the two gathered blocks at `(n, 0, dz, dy, dx)`. -/
theorem v73_at (n : Fin 32000) (dz dy dx : Fin 8) :
    val_main_v73 (F := Ideal) x0 x1 x2 (ix5 n (0 : Fin 1) dz dy dx)
      = ((absDiffR x1 x0 (rowS x2 n) (vox (rowC x2 n 2) dz) (vox (rowC x2 n 3) dy) (vox (rowC x2 n 4) dx) : ℝ) : EReal) := by
  rw [val_main_v73_apply, val_main_v72_apply, v35_at x1 x2 h2, v71_at x0 x2 h2]
  show max (x1 (voxel x2 n dz dy dx) - x0 (voxel x2 n dz dy dx)) (-(x1 (voxel x2 n dz dy dx) - x0 (voxel x2 n dz dy dx))) = _
  rw [← h1.coe_toReal (voxel x2 n dz dy dx), ← h0.coe_toReal (voxel x2 n dz dy dx)]
  exact abs_sub_real _ _

/-- The block sum of row `n`. -/
theorem v74_at (n : Fin 32000) : val_main_v74 (F := Ideal) x0 x1 x2 (ix1 n) = ((rowR x1 x0 x2 n : ℝ) : EReal) := by
  unfold val_main_v74
  simp only [Host.reduceAdd, Ideal.hostReduceAdd_def]
  rw [reduce_block]
  simp only [v73_at x0 x1 x2 h0 h1 h2 n, coe_sum]
  rw [val_main_cst_apply, Ideal.ofBits_def, Ideal.ofBits_zero_f32, zero_add]
  rfl

/-- The block mean of row `n`. -/
theorem v76_at (n : Fin 32000) : val_main_v76 (F := Ideal) x0 x1 x2 (ix1 n) = ((rowR x1 x0 x2 n / 512 : ℝ) : EReal) := by
  rw [val_main_v76_apply, v74_at x0 x1 x2 h0 h1 h2 n, val_main_v75_apply, val_main_cst_15_apply]
  show Ideal.div _ (Ideal.ofBits .f32 0x44000000#32) = _
  rw [ofBits_512, div_real _ _ (by norm_num)]

/-- The sum of the block means. -/
theorem v77_at (i : S_.Idx) :
    val_main_v77 (F := Ideal) x0 x1 x2 i = ((∑ n : Fin 32000, rowR x1 x0 x2 n / 512 : ℝ) : EReal) := by
  rw [val_main_v77_apply, sum_idx1]
  simp only [v76_at x0 x1 x2 h0 h1 h2]
  rw [coe_sum, val_main_cst_16_apply, Ideal.ofBits_def, Ideal.ofBits_zero_f32, zero_add]

end

/-- THE REFERENCE'S RESULT: the mean over the rows of the blocks' means of the absolute differences, which is the
    specification's value. -/
theorem ref_value
    (x0 x1 : (⟨Cert.ReferenceIdeal.S8x1x160x160x160, .f32⟩ : BufTy).Contents (Elt Ideal)) (x2 : (⟨Cert.ReferenceIdeal.S32000x5, .i32⟩ : BufTy).Contents (Elt Ideal))
    (h0 : Cert.Spec.Finite x0) (h1 : Cert.Spec.Finite x1) (h2 : Cert.Spec.InRange x2) :
    Cert.ReferenceIdeal.Read.val_main_v78 (F := Ideal) x0 x1 x2 = fun _ => ((Cert.Spec.resultR x1 x0 x2 : ℝ) : EReal) := by
  funext i
  rw [val_main_v78_apply, v77_at x0 x1 x2 h0 h1 h2, val_main_cst_17_apply]
  show Ideal.div _ (Ideal.ofBits .f32 0x46FA0000#32) = _
  rw [ofBits_32000, div_real _ _ (by norm_num), mean_of_means]

end Cert.RefValue

end
-- ==== Proof.lean ====
/-
  The certificate of the block-sum reconstruction loss.

  Both programs compute, for finite volumes and a table whose sample and block coordinates are in range, the mean
  over the table's rows and over the 8 × 8 × 8 entries of the block each row names of |original − masked|
  (Proof/Spec.lean).  The kernel program forms every block sum once (a pipelined region: per slab of eight depth
  rows, the absolute differences summed over depth and pooled by two products with the 0/1 matrix [w / 8 = x]),
  then gathers one block sum per row, adds them and divides by 32000 · 512; the reference gathers each row's block
  of either volume, averages the absolute differences over the block and then over the rows.  Over the reals the
  two are one number: a sum of quotients by 512, divided by 32000, is the sum divided by 16384000.

  The frames of the two kernel programs are Proof/FrameB.lean and Proof/FrameI.lean (one text at either instance of
  the float operations); the reference's frame is its run with the result dropped.  The idealization rewrote no
  operation, so there is nothing to preserve.  The value claim puts Proof/KerValue.lean (the kernel program's
  result) beside Proof/RefValue.lean (the reference's), both at the specification's number, under the decoded
  precondition (Proof/PreDecode.lean).
-/
import proofs.«403694_j34256659152993_3_alg».proof.Defs
import proofs.«403694_j34256659152993_3_alg».proof.Proof.Gen.Kernel
import proofs.«403694_j34256659152993_3_alg».proof.Proof.Gen.KernelIdeal
import proofs.«403694_j34256659152993_3_alg».proof.Proof.Gen.ReferenceIdeal
import proofs.«403694_j34256659152993_3_alg».proof.Proof.Gen.Pre_finite_inputs
import proofs.«403694_j34256659152993_3_alg».proof.Proof.Gen.ReferenceIdeal.Run
import proofs.«403694_j34256659152993_3_alg».proof.Proof.Gen.ReferenceIdeal.Read
import proofs.«403694_j34256659152993_3_alg».proof.Proof.Spec
import proofs.«403694_j34256659152993_3_alg».proof.Proof.FrameB
import proofs.«403694_j34256659152993_3_alg».proof.Proof.FrameI
import proofs.«403694_j34256659152993_3_alg».proof.Proof.PreDecode
import proofs.«403694_j34256659152993_3_alg».proof.Proof.KerValue
import proofs.«403694_j34256659152993_3_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.HF.frame m ρ

theorem frame_ki : Cert.frame_KernelIdeal := fun m ρ _ => Cert.KernelIdeal.HF.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments, under the precondition, both idealized programs end with the
    specification's number in their result buffer and their arguments unchanged. -/
theorem algebraic : Cert.algebraic_KernelIdeal_ReferenceIdeal := by
  intro m ρ m' ρ' hpre hagree
  have hdec := fun c => Cert.PreDecode.of_pre _ _ _ (hpre c)
  refine ⟨fun c => fun _ => ((Cert.Spec.resultR
      (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2)) : ℝ) : EReal), ?_, ?_⟩
  · refine (θ_run Cert.KernelIdeal.defs _ _).mono (fun r h c => ⟨(h c).1.trans ?_, (h c).2⟩)
      (Cert.KernelIdeal.KR.run_value m ρ)
    exact Cert.KernelIdeal.KR.ker_value m c (hdec c).1 (hdec c).2.1 (hdec c).2.2
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v78_eq, (hagree c).1, (hagree c).2.1, (hagree c).2.2]
    exact Cert.RefValue.ref_value _ _ _ (hdec c).1 (hdec c).2.1 (hdec c).2.2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
